-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x512x3 : Shape := ⟨3, ![1, 512, 3]⟩
abbrev S1x4096x3 : Shape := ⟨3, ![1, 4096, 3]⟩
abbrev S1x1x512 : Shape := ⟨3, ![1, 1, 512]⟩
abbrev S1x1x4096 : Shape := ⟨3, ![1, 1, 4096]⟩
abbrev S1x4096 : Shape := ⟨2, ![1, 4096]⟩
abbrev S512x3 : Shape := ⟨2, ![512, 3]⟩
abbrev S4096x3 : Shape := ⟨2, ![4096, 3]⟩
abbrev S512 : Shape := ⟨1, ![512]⟩
abbrev S512x1 : Shape := ⟨2, ![512, 1]⟩
abbrev S4096 : Shape := ⟨1, ![4096]⟩
abbrev S512x4096 : Shape := ⟨2, ![512, 4096]⟩
abbrev S8x4096 : Shape := ⟨2, ![8, 4096]⟩
abbrev S_ : Shape := ⟨0, ![]⟩
abbrev S8 : Shape := ⟨1, ![8]⟩

abbrev nBuf : Space → Nat
  | .hbm => 21
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S512x3_S512 : S512x3.Reduces [1] S512
  shapeCasts_S512_S512x1 : S512.ShapeCasts S512x1
  reduces_S4096x3_S4096 : S4096x3.Reduces [1] S4096
  bitsLt_bf16_f32 : FTy.bits .bf16 < FTy.bits .f32
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KRuns.lean ====
/-
  What the three control cases of the kernel body share: the three branch conditions as propositions over the grid
  coordinates and where on the 8 × 8 grid each holds; where the second output's window is idle; the staging and scratch
  memrefs a point is called with; and the region invariant's scoped part as "the scratch at some contents".

  The grid point t = 8·b + i handles batch entry b and tile i of the first cloud. The body resets the scratch row of
  running column minima at i = 0, merges into it at i ≠ 0, and copies it to the second output's block at i = 7.
-/
import proofs.«153870_j14293651161196_1_alg».proof.Proof.Gen.Kernel.Frame
import proofs.«153870_j14293651161196_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- "This is the first tile of the batch entry" (i = 0), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is a later tile" (i ≠ 0), as the body computes it. -/
abbrev cond0_1 (i : grid0.Coords) : Prop := (Scalar.cmpi .ne (Scalar.extui (Scalar.cmpi .ne (BitVec.ofNat 32 (i 1).val) 0#32)) 0#32) = 1#1
/-- It holds at the points not ≡ 0 (mod 8). -/
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- "This is the last tile" (i = 7). -/
abbrev cond0_2 (i : grid0.Coords) : Prop := k0_cond3 i = 1#1
/-- It holds at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the second output's window is idle: the body stores nothing into it, -/
theorem idleAt0_3 : ∀ t : Fin cfg0.N, ¬cond0_2 (grid0.coords t) → cfg0.idle 3 (grid0.coords t) = true := by decide +kernel
/-- and its block is not written back there. -/
theorem noFlush0_3 : ∀ t : Fin cfg0.N, ¬cond0_2 (grid0.coords t) → (cfg0.win 3).flush t = false := by decide +kernel
/-- At the last tile it is live. -/
theorem liveAt0_3 : ∀ t : Fin cfg0.N, cond0_2 (grid0.coords t) → cfg0.idle 3 (grid0.coords t) = false := by decide +kernel

/-! ## The memrefs a point is called with -/

/-- One staging buffer of each output window, through which its contents are stated. -/
abbrev VO0_2 : View sig .tc .vmem S1x1x512 .f32 := (Memref.whole cc0_stg2_0 : Memref sig .tc .vmem S1x1x512 .f32).view
abbrev VO0_3 : View sig .tc .vmem S1x1x4096 .f32 := (Memref.whole cc0_stg3_0 : Memref sig .tc .vmem S1x1x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The scratch row of running column minima: a whole scoped buffer of the kernel's own. -/
abbrev scM0_0 : Memref sig .tc .vmem S1x4096 .f32 := Memref.whole cc0_scratch0
abbrev VS0_0 : View sig .tc .vmem S1x4096 .f32 := scM0_0.view

/-- The region invariant's scoped part is the scratch owned at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.KRunA.lean ====
/-
  The kernel body run once, whole, at the first tile of a batch entry (the scratch row is reset to the tile's column minima, whatever it held; the second output's block is left alone): a triple over the body's own memory operations, whose witness is the list
  of pieces each buffer it stores into ends with.
-/
import proofs.«153870_j14293651161196_1_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at contents `xi3`, handed back untouched; the scratch row at anything —
    the body runs to the continuation with the inputs as they were and every buffer it stored into at its pieces written. -/
noncomputable def kernelRun0_A (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) :
    Σ' (L2 : List (View.Piece (Elt F) S1x1x512 .f32)) (L3 : List (View.Piece (Elt F) S1x1x4096 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, [], ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Body

end
-- ==== Proof.KRunB.lean ====
/-
  The kernel body run once, whole, at a middle tile (the scratch row, found at what the tile before left, is merged with the tile's column minima; the second output's block is left alone): a triple over the body's own memory operations, whose witness is the list
  of pieces each buffer it stores into ends with.
-/
import proofs.«153870_j14293651161196_1_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at contents `xi3`, handed back untouched; the scratch row at `xs0` —
    the body runs to the continuation with the inputs as they were and every buffer it stored into at its pieces written. -/
noncomputable def kernelRun0_B (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) :
    Σ' (L2 : List (View.Piece (Elt F) S1x1x512 .f32)) (L3 : List (View.Piece (Elt F) S1x1x4096 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, [], ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Body

end
-- ==== Proof.KRunC.lean ====
/-
  The kernel body run once, whole, at the last tile (the scratch row is merged as at a middle tile, then copied into the second output's block): a triple over the body's own memory operations, whose witness is the list
  of pieces each buffer it stores into ends with.
-/
import proofs.«153870_j14293651161196_1_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at anything; the scratch row at `xs0` —
    the body runs to the continuation with the inputs as they were and every buffer it stored into at its pieces written. -/
noncomputable def kernelRun0_C (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) :
    Σ' (L2 : List (View.Piece (Elt F) S1x1x512 .f32)) (L3 : List (View.Piece (Elt F) S1x1x4096 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Body

end
-- ==== Proof.KFrame.lean ====
/-
  The frame of the program around its one kernel region, from the three whole-body runs: what the two outputs' staging
  buffers and the scratch row hold after the body at each grid point (by recursion on the point: the scratch row is
  carried from a tile to the next within a batch entry), the region's proof data, the body obligation at every point,
  the run of @main and the frame claim (the program terminates, nothing faults, the two argument arrays end unchanged).
-/
import proofs.«153870_j14293651161196_1_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's one store into the first output's buffer covers it. -/
theorem cover0_A_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) (y : S1x1x512.Idx) :
    ∃ pc ∈ (kernelRun0_A c i arg2 harg2 arg3 harg3 arg4 harg4 arg5 harg5 arg6 harg6 hc0 hc1 hc2 x0 x1).1, y ∈ pc.1.set :=
  View.cover_of_tiledL (kernelRun0_A c i arg2 harg2 arg3 harg3 arg4 harg4 arg5 harg5 arg6 harg6 hc0 hc1 hc2 x0 x1).1 S1x1x512.size (by sl_kernel_rfl) y

/-- What case A leaves in the first output's staging buffer: its pieces read back. -/
def out0_A_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x1x512 .f32 :=
  VO0_2.read (Elt F) (VO0_2.writes (Elt F) VO0_2.junk (kernelRun0_A c i arg2 harg2 arg3 harg3 arg4 harg4 arg5 harg5 arg6 harg6 hc0 hc1 hc2 x0 x1).1)

/-- Case A stores nothing into the second output's buffer (idle there and not written back): a placeholder nothing consults. -/
def out0_A_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x1x4096 .f32 :=
  VO0_3.read (Elt F) (VO0_3.writes (Elt F) VO0_3.junk (kernelRun0_A c i arg2 harg2 arg3 harg3 arg4 harg4 arg5 harg5 arg6 harg6 hc0 hc1 hc2 x0 x1).2.1)

/-- Case A's one store into the scratch row covers it. -/
theorem scover0_A_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) (y : S1x4096.Idx) :
    ∃ pc ∈ (kernelRun0_A c i arg2 harg2 arg3 harg3 arg4 harg4 arg5 harg5 arg6 harg6 hc0 hc1 hc2 x0 x1).2.2.1, y ∈ pc.1.set :=
  View.cover_of_tiledL (kernelRun0_A c i arg2 harg2 arg3 harg3 arg4 harg4 arg5 harg5 arg6 harg6 hc0 hc1 hc2 x0 x1).2.2.1 S1x4096.size (by sl_kernel_rfl) y

/-- What case A leaves in the scratch row: its pieces read back. -/
def sout0_A_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x4096 .f32 :=
  VS0_0.read (Elt F) (VS0_0.writes (Elt F) VS0_0.junk (kernelRun0_A c i arg2 harg2 arg3 harg3 arg4 harg4 arg5 harg5 arg6 harg6 hc0 hc1 hc2 x0 x1).2.2.1)

/-- Case B's one store into the first output's buffer covers it. -/
theorem cover0_B_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) (y : S1x1x512.Idx) :
    ∃ pc ∈ (kernelRun0_B c i arg2 harg2 arg3 harg3 arg4 harg4 arg5 harg5 arg6 harg6 hc0 hc1 hc2 x0 x1 xs0).1, y ∈ pc.1.set :=
  View.cover_of_tiledL (kernelRun0_B c i arg2 harg2 arg3 harg3 arg4 harg4 arg5 harg5 arg6 harg6 hc0 hc1 hc2 x0 x1 xs0).1 S1x1x512.size (by sl_kernel_rfl) y

/-- What case B leaves in the first output's staging buffer: its pieces read back. -/
def out0_B_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x1x512 .f32 :=
  VO0_2.read (Elt F) (VO0_2.writes (Elt F) VO0_2.junk (kernelRun0_B c i arg2 harg2 arg3 harg3 arg4 harg4 arg5 harg5 arg6 harg6 hc0 hc1 hc2 x0 x1 xs0).1)

/-- Case B stores nothing into the second output's buffer (idle there and not written back): a placeholder nothing consults. -/
def out0_B_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x1x4096 .f32 :=
  VO0_3.read (Elt F) (VO0_3.writes (Elt F) VO0_3.junk (kernelRun0_B c i arg2 harg2 arg3 harg3 arg4 harg4 arg5 harg5 arg6 harg6 hc0 hc1 hc2 x0 x1 xs0).2.1)

/-- Case B's one store into the scratch row covers it. -/
theorem scover0_B_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) (y : S1x4096.Idx) :
    ∃ pc ∈ (kernelRun0_B c i arg2 harg2 arg3 harg3 arg4 harg4 arg5 harg5 arg6 harg6 hc0 hc1 hc2 x0 x1 xs0).2.2.1, y ∈ pc.1.set :=
  View.cover_of_tiledL (kernelRun0_B c i arg2 harg2 arg3 harg3 arg4 harg4 arg5 harg5 arg6 harg6 hc0 hc1 hc2 x0 x1 xs0).2.2.1 S1x4096.size (by sl_kernel_rfl) y

/-- What case B leaves in the scratch row: its pieces read back. -/
def sout0_B_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 hc2 x0 x1 xs0).2.2.1)

/-- Case C's one store into the first output's buffer covers it. -/
theorem cover0_C_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x1x512.Idx) :
    ∃ pc ∈ (kernelRun0_C c i arg2 harg2 arg3 harg3 arg4 harg4 arg5 harg5 arg6 harg6 hc0 hc1 hc2 x0 x1 xs0).1, y ∈ pc.1.set :=
  View.cover_of_tiledL (kernelRun0_C c i arg2 harg2 arg3 harg3 arg4 harg4 arg5 harg5 arg6 harg6 hc0 hc1 hc2 x0 x1 xs0).1 S1x1x512.size (by sl_kernel_rfl) y

/-- What case C leaves in the first output's staging buffer: its pieces read back. -/
def out0_C_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x1x512 .f32 :=
  VO0_2.read (Elt F) (VO0_2.writes (Elt F) VO0_2.junk (kernelRun0_C c i arg2 harg2 arg3 harg3 arg4 harg4 arg5 harg5 arg6 harg6 hc0 hc1 hc2 x0 x1 xs0).1)

/-- Case C's one store into the second output's buffer covers it. -/
theorem cover0_C_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x1x4096.Idx) :
    ∃ pc ∈ (kernelRun0_C c i arg2 harg2 arg3 harg3 arg4 harg4 arg5 harg5 arg6 harg6 hc0 hc1 hc2 x0 x1 xs0).2.1, y ∈ pc.1.set :=
  View.cover_of_tiledL (kernelRun0_C c i arg2 harg2 arg3 harg3 arg4 harg4 arg5 harg5 arg6 harg6 hc0 hc1 hc2 x0 x1 xs0).2.1 S1x1x4096.size (by sl_kernel_rfl) y

/-- What case C leaves in the second output's staging buffer: its pieces read back. -/
def out0_C_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x1x4096 .f32 :=
  VO0_3.read (Elt F) (VO0_3.writes (Elt F) VO0_3.junk (kernelRun0_C c i arg2 harg2 arg3 harg3 arg4 harg4 arg5 harg5 arg6 harg6 hc0 hc1 hc2 x0 x1 xs0).2.1)

/-- Case C's one store into the scratch row covers it. -/
theorem scover0_C_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x4096.Idx) :
    ∃ pc ∈ (kernelRun0_C c i arg2 harg2 arg3 harg3 arg4 harg4 arg5 harg5 arg6 harg6 hc0 hc1 hc2 x0 x1 xs0).2.2.1, y ∈ pc.1.set :=
  View.cover_of_tiledL (kernelRun0_C c i arg2 harg2 arg3 harg3 arg4 harg4 arg5 harg5 arg6 harg6 hc0 hc1 hc2 x0 x1 xs0).2.2.1 S1x4096.size (by sl_kernel_rfl) y

/-- What case C leaves in the scratch row: its pieces read back. -/
def sout0_C_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 hc2 x0 x1 xs0).2.2.1)

/-! ## What the buffers hold after each point -/

/-- The three components after the body at a first tile `t` (t ≡ 0 mod 8): first output, second output (placeholder), scratch row. -/
def atA (c : Dev nD) (t : Fin cfg0.N) (h0 : t.val % 8 = 0) : Vec F S1x1x512 .f32 × Vec F S1x1x4096 .f32 × Vec F S1x4096 .f32 :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t),
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t))

/-- After the body at a middle tile, over the scratch row `xs` the tile before left. -/
def atB (c : Dev nD) (t : Fin cfg0.N) (h0 : ¬t.val % 8 = 0) (h2 : ¬t.val % 8 = 7) (xs : Vec F S1x4096 .f32) : Vec F S1x1x512 .f32 × Vec F S1x1x4096 .f32 × Vec F S1x4096 .f32 :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs)

/-- After the body at a last tile, over the scratch row `xs` the tile before left. -/
def atC (c : Dev nD) (t : Fin cfg0.N) (h0 : ¬t.val % 8 = 0) (h2 : t.val % 8 = 7) (xs : Vec F S1x4096 .f32) : Vec F S1x1x512 .f32 × Vec F S1x1x4096 .f32 × Vec F S1x4096 .f32 :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs,
   out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs)

/-- THE ACCUMULATION: the first output's buffer, the second output's buffer and the scratch row after the body at
    position `n`, the scratch row read by a later tile being what position `n - 1` left. -/
def outsAt0 (c : Dev nD) : (n : ℕ) → n < cfg0.N → Vec F S1x1x512 .f32 × Vec F S1x1x4096 .f32 × Vec F S1x4096 .f32
  | 0, hn => atA m c ⟨0, hn⟩ (Nat.zero_mod _)
  | n + 1, hn =>
    if h0 : (n + 1) % 8 = 0 then atA m c ⟨n + 1, hn⟩ h0
    else if h2 : (n + 1) % 8 = 7 then atC m c ⟨n + 1, hn⟩ h0 h2 (outsAt0 c n (Nat.lt_of_succ_lt hn)).2.2
    else atB m c ⟨n + 1, hn⟩ h0 h2 (outsAt0 c n (Nat.lt_of_succ_lt hn)).2.2

theorem outsAt0_A (c : Dev nD) (t : Fin cfg0.N) (h0 : t.val % 8 = 0) :
    outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 8 = 0) (h2 : ¬t.val % 8 = 7) :
    outsAt0 m c t.val t.isLt = atB m c t h0 h2 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt0_C (c : Dev nD) (t : Fin cfg0.N) (h0 : ¬t.val % 8 = 0) (h2 : t.val % 8 = 7) :
    outsAt0 m c t.val t.isLt = atC m c t h0 h2 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

/-- The region invariant before position `n`: before the first point the scratch row at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The region's proof data -/

/-- The arrays as the region finds them; after the body at point `t` each input's buffer at its block and the outputs'
    at `outsAt0`'s components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position within its batch entry says which
    case it is in; the invariant hands the body the scratch row at what the point before left (at anything at the very
    first point, and at a first tile the body does not read it) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have hn2 : ¬cond0_2 (grid0.coords t) := fun h => by have h7 := (hcond0_2 t).mp h; omega
    rw [Dat.leavesExact_idle (dats m 0 c) 3 t (idleAt0_3 t hn2) (noFlush0_3 t hn2)]
    rw [outsAt0_A m c t h0]
    unfold atA out0_A_2 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => (hcond0_1 t).mp h h0) (fun h => by have h7 := (hcond0_2 t).mp h; (try dsimp only at h7 h0); omega) (iblk m c 0 t) (iblk m c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => (hcond0_1 t).mp h h0) (fun h => by have h7 := (hcond0_2 t).mp h; (try dsimp only at h7 h0); omega) (iblk m c 0 t) (iblk m c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
  · have hz : t.val ≠ 0 := fun h => h0 (by rw [h])
    by_cases h2 : t.val % 8 = 7
    · rw [show (dats m 0 c).leavesExact 3 t = owns (c : Thread nD τ) (ms0_3 t) fullShare ((dats m 0 c).after 3 t) from by
        unfold Dat.leavesExact; rw [liveAt0_3 t ((hcond0_2 t).mpr h2)], after0_3]
      rw [outsAt0_C m c t h0 h2]
      unfold atC out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h0) ((hcond0_2 t).mpr h2) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · have hn2 : ¬cond0_2 (grid0.coords t) := fun h => h2 ((hcond0_2 t).mp h)
      rw [Dat.leavesExact_idle (dats m 0 c) 3 t (idleAt0_3 t hn2) (noFlush0_3 t hn2)]
      rw [outsAt0_B m c t h0 h2]
      unfold atB out0_B_2 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) ((hcond0_1 t).mpr h0) (fun h => h2 ((hcond0_2 t).mp h)) (iblk m c 0 t) (iblk m c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch row's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, nothing faults, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIRuns.lean ====
/-
  What the three control cases of the kernel body share: the three branch conditions as propositions over the grid
  coordinates and where on the 8 × 8 grid each holds; where the second output's window is idle; the staging and scratch
  memrefs a point is called with; and the region invariant's scoped part as "the scratch at some contents".

  The grid point t = 8·b + i handles batch entry b and tile i of the first cloud. The body resets the scratch row of
  running column minima at i = 0, merges into it at i ≠ 0, and copies it to the second output's block at i = 7.
-/
import proofs.«153870_j14293651161196_1_alg».proof.Proof.Gen.KernelIdeal.Frame
import proofs.«153870_j14293651161196_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- "This is the first tile of the batch entry" (i = 0), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is a later tile" (i ≠ 0), as the body computes it. -/
abbrev cond0_1 (i : grid0.Coords) : Prop := (Scalar.cmpi .ne (Scalar.extui (Scalar.cmpi .ne (BitVec.ofNat 32 (i 1).val) 0#32)) 0#32) = 1#1
/-- It holds at the points not ≡ 0 (mod 8). -/
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- "This is the last tile" (i = 7). -/
abbrev cond0_2 (i : grid0.Coords) : Prop := k0_cond3 i = 1#1
/-- It holds at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the second output's window is idle: the body stores nothing into it, -/
theorem idleAt0_3 : ∀ t : Fin cfg0.N, ¬cond0_2 (grid0.coords t) → cfg0.idle 3 (grid0.coords t) = true := by decide +kernel
/-- and its block is not written back there. -/
theorem noFlush0_3 : ∀ t : Fin cfg0.N, ¬cond0_2 (grid0.coords t) → (cfg0.win 3).flush t = false := by decide +kernel
/-- At the last tile it is live. -/
theorem liveAt0_3 : ∀ t : Fin cfg0.N, cond0_2 (grid0.coords t) → cfg0.idle 3 (grid0.coords t) = false := by decide +kernel

/-! ## The memrefs a point is called with -/

/-- One staging buffer of each output window, through which its contents are stated. -/
abbrev VO0_2 : View sig .tc .vmem S1x1x512 .f32 := (Memref.whole cc0_stg2_0 : Memref sig .tc .vmem S1x1x512 .f32).view
abbrev VO0_3 : View sig .tc .vmem S1x1x4096 .f32 := (Memref.whole cc0_stg3_0 : Memref sig .tc .vmem S1x1x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The scratch row of running column minima: a whole scoped buffer of the kernel's own. -/
abbrev scM0_0 : Memref sig .tc .vmem S1x4096 .f32 := Memref.whole cc0_scratch0
abbrev VS0_0 : View sig .tc .vmem S1x4096 .f32 := scM0_0.view

/-- The region invariant's scoped part is the scratch owned at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.KIRunA.lean ====
/-
  The kernel body run once, whole, at the first tile of a batch entry (the scratch row is reset to the tile's column minima, whatever it held; the second output's block is left alone): a triple over the body's own memory operations, whose witness is the list
  of pieces each buffer it stores into ends with.
-/
import proofs.«153870_j14293651161196_1_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at contents `xi3`, handed back untouched; the scratch row at anything —
    the body runs to the continuation with the inputs as they were and every buffer it stored into at its pieces written. -/
noncomputable def kernelRun0_A (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) :
    Σ' (L2 : List (View.Piece (Elt F) S1x1x512 .f32)) (L3 : List (View.Piece (Elt F) S1x1x4096 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, [], ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Body

end
-- ==== Proof.KIRunB.lean ====
/-
  The kernel body run once, whole, at a middle tile (the scratch row, found at what the tile before left, is merged with the tile's column minima; the second output's block is left alone): a triple over the body's own memory operations, whose witness is the list
  of pieces each buffer it stores into ends with.
-/
import proofs.«153870_j14293651161196_1_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at contents `xi3`, handed back untouched; the scratch row at `xs0` —
    the body runs to the continuation with the inputs as they were and every buffer it stored into at its pieces written. -/
noncomputable def kernelRun0_B (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) :
    Σ' (L2 : List (View.Piece (Elt F) S1x1x512 .f32)) (L3 : List (View.Piece (Elt F) S1x1x4096 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, [], ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Body

end
-- ==== Proof.KIRunC.lean ====
/-
  The kernel body run once, whole, at the last tile (the scratch row is merged as at a middle tile, then copied into the second output's block): a triple over the body's own memory operations, whose witness is the list
  of pieces each buffer it stores into ends with.
-/
import proofs.«153870_j14293651161196_1_alg».proof.Proof.KIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input blocks at their contents `x0`, `x1`; the first output's buffer at anything;
    the second output's at anything; the scratch row at `xs0` —
    the body runs to the continuation with the inputs as they were and every buffer it stored into at its pieces written. -/
noncomputable def kernelRun0_C (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) :
    Σ' (L2 : List (View.Piece (Elt F) S1x1x512 .f32)) (L3 : List (View.Piece (Elt F) S1x1x4096 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Body

end
-- ==== Proof.KIFrame.lean ====
/-
  The frame of the program around its one kernel region, from the three whole-body runs: what the two outputs' staging
  buffers and the scratch row hold after the body at each grid point (by recursion on the point: the scratch row is
  carried from a tile to the next within a batch entry), the region's proof data, the body obligation at every point,
  the run of @main and the frame claim (the program terminates, nothing faults, the two argument arrays end unchanged).
-/
import proofs.«153870_j14293651161196_1_alg».proof.Proof.KIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's one store into the first output's buffer covers it. -/
theorem cover0_A_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) (y : S1x1x512.Idx) :
    ∃ pc ∈ (kernelRun0_A c i arg2 harg2 arg3 harg3 arg4 harg4 arg5 harg5 arg6 harg6 hc0 hc1 hc2 x0 x1).1, y ∈ pc.1.set :=
  View.cover_of_tiledL (kernelRun0_A c i arg2 harg2 arg3 harg3 arg4 harg4 arg5 harg5 arg6 harg6 hc0 hc1 hc2 x0 x1).1 S1x1x512.size (by sl_kernel_rfl) y

/-- What case A leaves in the first output's staging buffer: its pieces read back. -/
def out0_A_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x1x512 .f32 :=
  VO0_2.read (Elt F) (VO0_2.writes (Elt F) VO0_2.junk (kernelRun0_A c i arg2 harg2 arg3 harg3 arg4 harg4 arg5 harg5 arg6 harg6 hc0 hc1 hc2 x0 x1).1)

/-- Case A stores nothing into the second output's buffer (idle there and not written back): a placeholder nothing consults. -/
def out0_A_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x1x4096 .f32 :=
  VO0_3.read (Elt F) (VO0_3.writes (Elt F) VO0_3.junk (kernelRun0_A c i arg2 harg2 arg3 harg3 arg4 harg4 arg5 harg5 arg6 harg6 hc0 hc1 hc2 x0 x1).2.1)

/-- Case A's one store into the scratch row covers it. -/
theorem scover0_A_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) (y : S1x4096.Idx) :
    ∃ pc ∈ (kernelRun0_A c i arg2 harg2 arg3 harg3 arg4 harg4 arg5 harg5 arg6 harg6 hc0 hc1 hc2 x0 x1).2.2.1, y ∈ pc.1.set :=
  View.cover_of_tiledL (kernelRun0_A c i arg2 harg2 arg3 harg3 arg4 harg4 arg5 harg5 arg6 harg6 hc0 hc1 hc2 x0 x1).2.2.1 S1x4096.size (by sl_kernel_rfl) y

/-- What case A leaves in the scratch row: its pieces read back. -/
def sout0_A_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) : Vec F S1x4096 .f32 :=
  VS0_0.read (Elt F) (VS0_0.writes (Elt F) VS0_0.junk (kernelRun0_A c i arg2 harg2 arg3 harg3 arg4 harg4 arg5 harg5 arg6 harg6 hc0 hc1 hc2 x0 x1).2.2.1)

/-- Case B's one store into the first output's buffer covers it. -/
theorem cover0_B_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) (y : S1x1x512.Idx) :
    ∃ pc ∈ (kernelRun0_B c i arg2 harg2 arg3 harg3 arg4 harg4 arg5 harg5 arg6 harg6 hc0 hc1 hc2 x0 x1 xs0).1, y ∈ pc.1.set :=
  View.cover_of_tiledL (kernelRun0_B c i arg2 harg2 arg3 harg3 arg4 harg4 arg5 harg5 arg6 harg6 hc0 hc1 hc2 x0 x1 xs0).1 S1x1x512.size (by sl_kernel_rfl) y

/-- What case B leaves in the first output's staging buffer: its pieces read back. -/
def out0_B_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x1x512 .f32 :=
  VO0_2.read (Elt F) (VO0_2.writes (Elt F) VO0_2.junk (kernelRun0_B c i arg2 harg2 arg3 harg3 arg4 harg4 arg5 harg5 arg6 harg6 hc0 hc1 hc2 x0 x1 xs0).1)

/-- Case B stores nothing into the second output's buffer (idle there and not written back): a placeholder nothing consults. -/
def out0_B_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x1x4096 .f32 :=
  VO0_3.read (Elt F) (VO0_3.writes (Elt F) VO0_3.junk (kernelRun0_B c i arg2 harg2 arg3 harg3 arg4 harg4 arg5 harg5 arg6 harg6 hc0 hc1 hc2 x0 x1 xs0).2.1)

/-- Case B's one store into the scratch row covers it. -/
theorem scover0_B_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) (y : S1x4096.Idx) :
    ∃ pc ∈ (kernelRun0_B c i arg2 harg2 arg3 harg3 arg4 harg4 arg5 harg5 arg6 harg6 hc0 hc1 hc2 x0 x1 xs0).2.2.1, y ∈ pc.1.set :=
  View.cover_of_tiledL (kernelRun0_B c i arg2 harg2 arg3 harg3 arg4 harg4 arg5 harg5 arg6 harg6 hc0 hc1 hc2 x0 x1 xs0).2.2.1 S1x4096.size (by sl_kernel_rfl) y

/-- What case B leaves in the scratch row: its pieces read back. -/
def sout0_B_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 hc2 x0 x1 xs0).2.2.1)

/-- Case C's one store into the first output's buffer covers it. -/
theorem cover0_C_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x1x512.Idx) :
    ∃ pc ∈ (kernelRun0_C c i arg2 harg2 arg3 harg3 arg4 harg4 arg5 harg5 arg6 harg6 hc0 hc1 hc2 x0 x1 xs0).1, y ∈ pc.1.set :=
  View.cover_of_tiledL (kernelRun0_C c i arg2 harg2 arg3 harg3 arg4 harg4 arg5 harg5 arg6 harg6 hc0 hc1 hc2 x0 x1 xs0).1 S1x1x512.size (by sl_kernel_rfl) y

/-- What case C leaves in the first output's staging buffer: its pieces read back. -/
def out0_C_2 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x1x512 .f32 :=
  VO0_2.read (Elt F) (VO0_2.writes (Elt F) VO0_2.junk (kernelRun0_C c i arg2 harg2 arg3 harg3 arg4 harg4 arg5 harg5 arg6 harg6 hc0 hc1 hc2 x0 x1 xs0).1)

/-- Case C's one store into the second output's buffer covers it. -/
theorem cover0_C_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x1x4096.Idx) :
    ∃ pc ∈ (kernelRun0_C c i arg2 harg2 arg3 harg3 arg4 harg4 arg5 harg5 arg6 harg6 hc0 hc1 hc2 x0 x1 xs0).2.1, y ∈ pc.1.set :=
  View.cover_of_tiledL (kernelRun0_C c i arg2 harg2 arg3 harg3 arg4 harg4 arg5 harg5 arg6 harg6 hc0 hc1 hc2 x0 x1 xs0).2.1 S1x1x4096.size (by sl_kernel_rfl) y

/-- What case C leaves in the second output's staging buffer: its pieces read back. -/
def out0_C_3 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x1x4096 .f32 :=
  VO0_3.read (Elt F) (VO0_3.writes (Elt F) VO0_3.junk (kernelRun0_C c i arg2 harg2 arg3 harg3 arg4 harg4 arg5 harg5 arg6 harg6 hc0 hc1 hc2 x0 x1 xs0).2.1)

/-- Case C's one store into the scratch row covers it. -/
theorem scover0_C_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) (y : S1x4096.Idx) :
    ∃ pc ∈ (kernelRun0_C c i arg2 harg2 arg3 harg3 arg4 harg4 arg5 harg5 arg6 harg6 hc0 hc1 hc2 x0 x1 xs0).2.2.1, y ∈ pc.1.set :=
  View.cover_of_tiledL (kernelRun0_C c i arg2 harg2 arg3 harg3 arg4 harg4 arg5 harg5 arg6 harg6 hc0 hc1 hc2 x0 x1 xs0).2.2.1 S1x4096.size (by sl_kernel_rfl) y

/-- What case C leaves in the scratch row: its pieces read back. -/
def sout0_C_0 (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 hc2 x0 x1 xs0).2.2.1)

/-! ## What the buffers hold after each point -/

/-- The three components after the body at a first tile `t` (t ≡ 0 mod 8): first output, second output (placeholder), scratch row. -/
def atA (c : Dev nD) (t : Fin cfg0.N) (h0 : t.val % 8 = 0) : Vec F S1x1x512 .f32 × Vec F S1x1x4096 .f32 × Vec F S1x4096 .f32 :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t),
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t))

/-- After the body at a middle tile, over the scratch row `xs` the tile before left. -/
def atB (c : Dev nD) (t : Fin cfg0.N) (h0 : ¬t.val % 8 = 0) (h2 : ¬t.val % 8 = 7) (xs : Vec F S1x4096 .f32) : Vec F S1x1x512 .f32 × Vec F S1x1x4096 .f32 × Vec F S1x4096 .f32 :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) xs)

/-- After the body at a last tile, over the scratch row `xs` the tile before left. -/
def atC (c : Dev nD) (t : Fin cfg0.N) (h0 : ¬t.val % 8 = 0) (h2 : t.val % 8 = 7) (xs : Vec F S1x4096 .f32) : Vec F S1x1x512 .f32 × Vec F S1x1x4096 .f32 × Vec F S1x4096 .f32 :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs,
   out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) xs)

/-- THE ACCUMULATION: the first output's buffer, the second output's buffer and the scratch row after the body at
    position `n`, the scratch row read by a later tile being what position `n - 1` left. -/
def outsAt0 (c : Dev nD) : (n : ℕ) → n < cfg0.N → Vec F S1x1x512 .f32 × Vec F S1x1x4096 .f32 × Vec F S1x4096 .f32
  | 0, hn => atA m c ⟨0, hn⟩ (Nat.zero_mod _)
  | n + 1, hn =>
    if h0 : (n + 1) % 8 = 0 then atA m c ⟨n + 1, hn⟩ h0
    else if h2 : (n + 1) % 8 = 7 then atC m c ⟨n + 1, hn⟩ h0 h2 (outsAt0 c n (Nat.lt_of_succ_lt hn)).2.2
    else atB m c ⟨n + 1, hn⟩ h0 h2 (outsAt0 c n (Nat.lt_of_succ_lt hn)).2.2

theorem outsAt0_A (c : Dev nD) (t : Fin cfg0.N) (h0 : t.val % 8 = 0) :
    outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 8 = 0) (h2 : ¬t.val % 8 = 7) :
    outsAt0 m c t.val t.isLt = atB m c t h0 h2 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt0_C (c : Dev nD) (t : Fin cfg0.N) (h0 : ¬t.val % 8 = 0) (h2 : t.val % 8 = 7) :
    outsAt0 m c t.val t.isLt = atC m c t h0 h2 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

/-- The region invariant before position `n`: before the first point the scratch row at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The region's proof data -/

/-- The arrays as the region finds them; after the body at point `t` each input's buffer at its block and the outputs'
    at `outsAt0`'s components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position within its batch entry says which
    case it is in; the invariant hands the body the scratch row at what the point before left (at anything at the very
    first point, and at a first tile the body does not read it) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have hn2 : ¬cond0_2 (grid0.coords t) := fun h => by have h7 := (hcond0_2 t).mp h; omega
    rw [Dat.leavesExact_idle (dats m 0 c) 3 t (idleAt0_3 t hn2) (noFlush0_3 t hn2)]
    rw [outsAt0_A m c t h0]
    unfold atA out0_A_2 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => (hcond0_1 t).mp h h0) (fun h => by have h7 := (hcond0_2 t).mp h; (try dsimp only at h7 h0); omega) (iblk m c 0 t) (iblk m c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => (hcond0_1 t).mp h h0) (fun h => by have h7 := (hcond0_2 t).mp h; (try dsimp only at h7 h0); omega) (iblk m c 0 t) (iblk m c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
  · have hz : t.val ≠ 0 := fun h => h0 (by rw [h])
    by_cases h2 : t.val % 8 = 7
    · rw [show (dats m 0 c).leavesExact 3 t = owns (c : Thread nD τ) (ms0_3 t) fullShare ((dats m 0 c).after 3 t) from by
        unfold Dat.leavesExact; rw [liveAt0_3 t ((hcond0_2 t).mpr h2)], after0_3]
      rw [outsAt0_C m c t h0 h2]
      unfold atC out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h0) ((hcond0_2 t).mpr h2) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · have hn2 : ¬cond0_2 (grid0.coords t) := fun h => h2 ((hcond0_2 t).mp h)
      rw [Dat.leavesExact_idle (dats m 0 c) 3 t (idleAt0_3 t hn2) (noFlush0_3 t hn2)]
      rw [outsAt0_B m c t h0 h2]
      unfold atB out0_B_2 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) ((hcond0_1 t).mpr h0) (fun h => h2 ((hcond0_2 t).mp h)) (iblk m c 0 t) (iblk m c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch row's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, nothing faults, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KIPieces.lean ====
/-
  What each whole-body run leaves in the buffers it stores into, named: every such buffer is stored once, whole, so what
  it holds afterwards is the stored value — the tile's row minima in the first output's buffer; the tile's column minima
  (first tile) or those merged into what the scratch row held (later tiles) in the scratch row; and at a last tile the
  merged scratch row, reshaped, in the second output's buffer. Each value is a function of the two input blocks and of
  the scratch row the point found.
-/
import proofs.«153870_j14293651161196_1_alg».proof.Proof.KIFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- At a first tile the first output's buffer ends at the tile's row minima. -/
theorem out0_A_2_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) :
    out0_A_2 c i arg2 harg2 arg3 harg3 arg4 harg4 arg5 harg5 arg6 harg6 hc0 hc1 hc2 x0 x1 = k0_pay3 x0 x1 := by
  unfold out0_A_2
  rw [View.read_writes_eq_canon _ _ _ (cover0_A_2 c i arg2 harg2 arg3 harg3 arg4 harg4 arg5 harg5 arg6 harg6 hc0 hc1 hc2 x0 x1)]
  unfold kernelRun0_A
  dsimp only
  sl_unfold_words
  rw [View.canon_unit_zero hz3]
  simp only [View.readAt_eq_ld, harg2.read_unread, harg3.read_unread, View.ld_unit_zero (S := S1x512x3) hz3, View.ld_unit_zero (S := S1x4096x3) hz3, View.ld_unit_zero (S := S1x4096) hz2, View.readCov_unit_zero (S := S1x4096) _ hz2]

/-- At a first tile the scratch row ends at the tile's column minima. -/
theorem sout0_A_0_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x4096x3 .f32) :
    sout0_A_0 c i arg2 harg2 arg3 harg3 arg4 harg4 arg5 harg5 arg6 harg6 hc0 hc1 hc2 x0 x1 = k0_pay5 x0 x1 := by
  unfold sout0_A_0
  rw [View.read_writes_eq_canon _ _ _ (scover0_A_0 c i arg2 harg2 arg3 harg3 arg4 harg4 arg5 harg5 arg6 harg6 hc0 hc1 hc2 x0 x1)]
  unfold kernelRun0_A
  dsimp only
  sl_unfold_words
  rw [View.canon_unit_zero hz2]
  simp only [View.readAt_eq_ld, harg2.read_unread, harg3.read_unread, View.ld_unit_zero (S := S1x512x3) hz3, View.ld_unit_zero (S := S1x4096x3) hz3, View.ld_unit_zero (S := S1x4096) hz2, View.readCov_unit_zero (S := S1x4096) _ hz2]

/-- At a middle tile the first output's buffer ends at the tile's row minima. -/
theorem out0_B_2_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) :
    out0_B_2 c i arg2 harg2 arg3 harg3 arg4 harg4 arg5 harg5 arg6 harg6 hc0 hc1 hc2 x0 x1 xs0 = k0_pay3 x0 x1 := by
  unfold out0_B_2
  rw [View.read_writes_eq_canon _ _ _ (cover0_B_2 c i arg2 harg2 arg3 harg3 arg4 harg4 arg5 harg5 arg6 harg6 hc0 hc1 hc2 x0 x1 xs0)]
  unfold kernelRun0_B
  dsimp only
  sl_unfold_words
  rw [View.canon_unit_zero hz3]
  simp only [View.readAt_eq_ld, harg2.read_unread, harg3.read_unread, View.ld_unit_zero (S := S1x512x3) hz3, View.ld_unit_zero (S := S1x4096x3) hz3, View.ld_unit_zero (S := S1x4096) hz2, View.readCov_unit_zero (S := S1x4096) _ hz2]

/-- At a middle tile the scratch row ends at what it held merged with the tile's column minima. -/
theorem sout0_B_0_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x4096x3 .f32) (xs0 : Vec F S1x4096 .f32) :
    sout0_B_0 c i arg2 harg2 arg3 harg3 arg4 harg4 arg5 harg5 arg6 harg6 hc0 hc1 hc2 x0 x1 xs0 = k0_pay6 x0 x1 xs0 := by
  unfold sout0_B_0
  rw [View.read_writes_eq_canon _ _ _ (scover0_B_0 c i arg2 harg2 arg3 harg3 arg4 harg4 arg5 harg5 arg6 harg6 hc0 hc1 hc2 x0 x1 xs0)]
  unfold kernelRun0_B
  dsimp only
  sl_unfold_words
  rw [View.canon_unit_zero hz2]
  simp only [View.readAt_eq_ld, harg2.read_unread, harg3.read_unread, harg6.read_unread, View.ld_unit_zero (S := S1x512x3) hz3, View.ld_unit_zero (S := S1x4096x3) hz3, View.ld_unit_zero (S := S1x4096) hz2, View.readCov_unit_zero (S := S1x4096) _ hz2]

/-- At a last tile the first output's buffer ends at the tile's row minima. -/
theorem out0_C_2_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) :
    out0_C_2 c i arg2 harg2 arg3 harg3 arg4 harg4 arg5 harg5 arg6 harg6 hc0 hc1 hc2 x0 x1 xs0 = k0_pay3 x0 x1 := by
  unfold out0_C_2
  rw [View.read_writes_eq_canon _ _ _ (cover0_C_2 c i arg2 harg2 arg3 harg3 arg4 harg4 arg5 harg5 arg6 harg6 hc0 hc1 hc2 x0 x1 xs0)]
  unfold kernelRun0_C
  dsimp only
  sl_unfold_words
  rw [View.canon_unit_zero hz3]
  simp only [View.readAt_eq_ld, harg2.read_unread, harg3.read_unread, View.ld_unit_zero (S := S1x512x3) hz3, View.ld_unit_zero (S := S1x4096x3) hz3, View.ld_unit_zero (S := S1x4096) hz2, View.readCov_unit_zero (S := S1x4096) _ hz2]

/-- At a last tile the scratch row ends at what it held merged with the tile's column minima. -/
theorem sout0_C_0_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) :
    sout0_C_0 c i arg2 harg2 arg3 harg3 arg4 harg4 arg5 harg5 arg6 harg6 hc0 hc1 hc2 x0 x1 xs0 = k0_pay6 x0 x1 xs0 := by
  unfold sout0_C_0
  rw [View.read_writes_eq_canon _ _ _ (scover0_C_0 c i arg2 harg2 arg3 harg3 arg4 harg4 arg5 harg5 arg6 harg6 hc0 hc1 hc2 x0 x1 xs0)]
  unfold kernelRun0_C
  dsimp only
  sl_unfold_words
  rw [View.canon_unit_zero hz2]
  simp only [View.readAt_eq_ld, harg2.read_unread, harg3.read_unread, harg6.read_unread, View.ld_unit_zero (S := S1x512x3) hz3, View.ld_unit_zero (S := S1x4096x3) hz3, View.ld_unit_zero (S := S1x4096) hz2, View.readCov_unit_zero (S := S1x4096) _ hz2]

/-- At a last tile the second output's buffer ends at the merged scratch row, reshaped. -/
theorem out0_C_3_eq (c : Dev nD) (i : grid0.Coords) (arg2 : Memref sig .tc .vmem S1x512x3 .f32) (harg2 : arg2.IsWhole) (arg3 : Memref sig .tc .vmem S1x4096x3 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x4096x3 .f32) (xs0 : Vec F S1x4096 .f32) :
    out0_C_3 c i arg2 harg2 arg3 harg3 arg4 harg4 arg5 harg5 arg6 harg6 hc0 hc1 hc2 x0 x1 xs0 = k0_pay1 (k0_pay6 x0 x1 xs0) := by
  unfold out0_C_3
  rw [View.read_writes_eq_canon _ _ _ (cover0_C_3 c i arg2 harg2 arg3 harg3 arg4 harg4 arg5 harg5 arg6 harg6 hc0 hc1 hc2 x0 x1 xs0)]
  unfold kernelRun0_C
  dsimp only
  sl_unfold_words
  rw [View.canon_unit_zero hz3]
  simp only [View.readAt_eq_ld, harg2.read_unread, harg3.read_unread, harg6.read_unread, View.ld_unit_zero (S := S1x512x3) hz3, View.ld_unit_zero (S := S1x4096x3) hz3, View.ld_unit_zero (S := S1x4096) hz2, View.readCov_unit_zero (S := S1x4096) _ hz2]

end Cert.KernelIdeal.Body

end
-- ==== Proof.KIGeom.lean ====
/-
  Where the blocks sit. Grid point t = 8·b + i handles batch entry b = t / 8 and tile i = t % 8: the first input's block
  is rows 512·i … 512·i + 511 of batch entry b of the first cloud, the second input's block the whole batch entry b of
  the second cloud, the first output's block columns 512·i … 512·i + 511 of row b, the second output's block row b.
-/
import proofs.«153870_j14293651161196_1_alg».proof.Proof.Gen.KernelIdeal.Frame
import Idealize.ShloMosaic.Lib.ValueIdx
import Idealize.ShloMosaic.Lib.Pipeline.Value

set_option maxRecDepth 16384

noncomputable section

namespace Cert.KernelIdeal.Geom

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The batch entry of a grid point. -/
def bOf (t : Fin cfg0.N) : Fin 8 := ⟨t.val / 8, by have h : t.val < 64 := lt_of_lt_of_eq t.isLt (show cfg0.N = 64 from N_0); omega⟩
/-- Row `r` of the tile of a grid point, as a row of the whole cloud. -/
def rowOf (t : Fin cfg0.N) (r : Fin 512) : Fin 4096 := ⟨t.val % 8 * 512 + r.val, by have := r.isLt; omega⟩

/-- The printed index maps, decided over the grid: at point `t` every window sits at batch entry `t / 8`; the first
    input's block is tile `t % 8` of the rows, the first output's block tile `t % 8` of the columns; the other
    block indices are zero. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

/-- Where an entry of the first input's block at point `t` sits in its array: a block's coordinate is the block index
    times the block's extent plus the coordinate inside the block. -/
theorem emb0 (t : Fin cfg0.N) (r : Fin 512) (d : Fin 3) :
    ((cfg0.win 0).blk t).view.emb (ix3 0 r d) = ix3 (bOf t) (rowOf t r) d := by
  obtain ⟨e0, e1, e2, -⟩ := idx_facts t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 3 + 1 * d.val = d.val; omega

/-- Where an entry of the second input's block at point `t` sits in its array. -/
theorem emb1 (t : Fin cfg0.N) (p : Fin 4096) (d : Fin 3) :
    ((cfg0.win 1).blk t).view.emb (ix3 0 p d) = ix3 (bOf t) p d := by
  obtain ⟨-, -, -, e0, e1, e2, -⟩ := idx_facts t
  funext a; apply Fin.ext
  match a with
  | ⟨0, _⟩ => show win0_1.index t (0 : Fin 3) * 1 + 1 * 0 = t.val / 8; omega
  | ⟨1, _⟩ => show win0_1.index t (1 : Fin 3) * 4096 + 1 * p.val = p.val; omega
  | ⟨2, _⟩ => show win0_1.index t (2 : Fin 3) * 3 + 1 * d.val = d.val; omega

/-- An index of the first output's array is in point `t`'s block iff each coordinate is in the block's range on its axis. -/
theorem mem_blk2 (t : Fin cfg0.N) (i : S8x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v0_0).slice (win0_2.rect t)).set ↔ _
  rw [View.set_slice_whole, Rect.mem_set_unit]
  exact Iff.rfl

/-- The same for the second output's array. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- The first input's block at point `t`, read at row `r` and coordinate `d`. -/
theorem iblk0_apply (c : Dev nD) (t : Fin cfg0.N) (r : Fin 512) (d : Fin 3) :
    iblk m c 0 t (ix3 0 r d) = V m c main_arg0 (ix3 (bOf t) (rowOf t r) d) := by
  show V m c main_arg0 (((cfg0.win 0).blk t).view.emb (ix3 0 r d)) = _
  rw [emb0]

/-- The second input's block at point `t`: the whole batch entry. -/
theorem iblk1_apply (c : Dev nD) (t : Fin cfg0.N) (p : Fin 4096) (d : Fin 3) :
    iblk m c 1 t (ix3 0 p d) = V m c main_arg1 (ix3 (bOf t) p d) := by
  show V m c main_arg1 (((cfg0.win 1).blk t).view.emb (ix3 0 p d)) = _
  rw [emb1]

/-- Where entry `r` of the first output's block at point `t` sits in its array. -/
theorem emb2 (t : Fin cfg0.N) (r : Fin 512) :
    ((cfg0.win 2).blk t).view.emb (ix3 0 0 r) = ix3 (bOf t) 0 (rowOf t r) := by
  obtain ⟨-, -, -, -, -, -, e0, e1, e2, -⟩ := idx_facts t
  funext a; apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 512 + 1 * r.val = t.val % 8 * 512 + r.val; omega

/-- Where entry `p` of the second output's block at point `t` sits in its array. -/
theorem emb3 (t : Fin cfg0.N) (p : Fin 4096) :
    ((cfg0.win 3).blk t).view.emb (ix3 0 0 p) = ix3 (bOf t) 0 p := by
  obtain ⟨-, -, -, -, -, -, -, -, -, e0, e1, e2⟩ := idx_facts t
  funext a; apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 4096 + 1 * p.val = p.val; omega

/-- Every entry of the first output's array lies in the block of a point (which writes it back). -/
theorem cover2 (i : S8x1x4096.Idx) :
    ∃ t : Fin cfg0.N, (cfg0.win 2).flush t = true ∧ i ∈ ((cfg0.win 2).blk t).view.set := by
  -- entry (b, 0, n) lies in the block of point 8·b + n / 512
  have hi0 : (i 0).val < 8 := (i 0).isLt
  have hi1 : (i 1).val < 1 := (i 1).isLt
  have hi2 : (i 2).val < 4096 := (i 2).isLt
  have hN : cfg0.N = 64 := N_0
  let t : Fin cfg0.N := ⟨8 * (i 0).val + (i 2).val / 512, by rw [hN]; omega⟩
  have htv : t.val = 8 * (i 0).val + (i 2).val / 512 := rfl
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512; omega

/-- Every entry of the second output's array lies in the block of a last-tile point (which writes it back). -/
theorem cover3 (i : S8x1x4096.Idx) :
    ∃ t : Fin cfg0.N, (cfg0.win 3).flush t = true ∧ i ∈ ((cfg0.win 3).blk t).view.set := by
  -- entry (b, 0, n) lies in the block of point 8·b + 7, the last tile of batch entry b
  have hi0 : (i 0).val < 8 := (i 0).isLt
  have hi1 : (i 1).val < 1 := (i 1).isLt
  have hi2 : (i 2).val < 4096 := (i 2).isLt
  have hN : cfg0.N = 64 := N_0
  let t : Fin cfg0.N := ⟨8 * (i 0).val + 7, by rw [hN]; omega⟩
  have htv : t.val = 8 * (i 0).val + 7 := rfl
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

end Cert.KernelIdeal.Geom

end
-- ==== Proof.Spec.lean ====
/-
  The mathematics both programs compute, stated once over the extended reals.

  Two clouds of 4096 points in three dimensions per batch entry, eight batch entries. For a point `p` of the first
  cloud and a point `q` of the second, the clipped squared distance is `max (|p|² + |q|² - 2 p·q) 0`, the norms and the
  inner product plain sums over the three coordinates. Each point of one cloud takes the minimum of these over the other
  cloud; the result is the batch mean of (the mean over the first cloud's points + the mean over the second cloud's).
-/
import Idealize.ShloMosaic.Lib.ValueIdx
import Idealize.ShloMosaic.PureOps.Ideal.Laws

noncomputable section

namespace Cert.Spec

open Idealize.ShloMosaic Idealize.ShloMosaic.ValueIdx

/-- The clipped squared distance between row `r` of a block of `a` points and row `m` of a block of `b` points
    (each block one batch entry: a leading axis of extent one): `max (|u_r|² + |v_m|² - 2 u_r·v_m) 0`. -/
def pairDist {a b : ℕ} (u : FVec Ideal ⟨3, ![1, a, 3]⟩ .f32) (v : FVec Ideal ⟨3, ![1, b, 3]⟩ .f32)
    (r : Fin a) (m : Fin b) : EReal :=
  max (((∑ d : Fin 3, u (ix3 0 r d) * u (ix3 0 r d)) + ∑ d : Fin 3, v (ix3 0 m d) * v (ix3 0 m d))
        - Ideal.ofBits .f32 0x40000000#32 * ∑ d : Fin 3, u (ix3 0 r d) * v (ix3 0 m d))
    (Ideal.ofBits .f32 0x00000000#32)

/-- The same between point `n` of the first cloud and point `m` of the second, in batch entry `b`, read off the two
    whole arrays. -/
def dist (x y : FVec Ideal ⟨3, ![8, 4096, 3]⟩ .f32) (b : Fin 8) (n m : Fin 4096) : EReal :=
  max (((∑ d : Fin 3, x (ix3 b n d) * x (ix3 b n d)) + ∑ d : Fin 3, y (ix3 b m d) * y (ix3 b m d))
        - Ideal.ofBits .f32 0x40000000#32 * ∑ d : Fin 3, x (ix3 b n d) * y (ix3 b m d))
    (Ideal.ofBits .f32 0x00000000#32)

/-- The value every minimum starts from: the pattern of `+∞`. -/
abbrev inf : EReal := Ideal.ofBits .f32 0x7F800000#32

/-- For each point of the first cloud, the least clipped squared distance to a point of the second. -/
def near1 (x y : FVec Ideal ⟨3, ![8, 4096, 3]⟩ .f32) : FVec Ideal ⟨2, ![8, 4096]⟩ .f32 :=
  fun i => (Finset.univ : Finset (Fin 4096)).fold min inf fun m => dist x y (i 0) (i 1) m

/-- For each point of the second cloud, the least clipped squared distance to a point of the first. -/
def near2 (x y : FVec Ideal ⟨3, ![8, 4096, 3]⟩ .f32) : FVec Ideal ⟨2, ![8, 4096]⟩ .f32 :=
  fun i => (Finset.univ : Finset (Fin 4096)).fold min inf fun n => dist x y (i 0) n (i 1)

theorem near1_apply (x y : FVec Ideal ⟨3, ![8, 4096, 3]⟩ .f32) (b : Fin 8) (n : Fin 4096) :
    near1 x y (ix2 b n) = (Finset.univ : Finset (Fin 4096)).fold min inf fun m => dist x y b n m := rfl

theorem near2_apply (x y : FVec Ideal ⟨3, ![8, 4096, 3]⟩ .f32) (b : Fin 8) (m : Fin 4096) :
    near2 x y (ix2 b m) = (Finset.univ : Finset (Fin 4096)).fold min inf fun n => dist x y b n m := rfl

/-- The closing host chain both programs share, as one function of the two [8, 4096] arrays of minima: each array summed
    along its rows and divided by 4096, the two added, summed over the batch and divided by 8. The shape facts are
    arguments, so that either program's own witnesses can be passed. -/
def total (h1 : (⟨2, ![8, 4096]⟩ : Shape).ReducesTo [1] ⟨1, ![8]⟩) (hS : 0 < (⟨0, ![]⟩ : Shape).numel)
    (hb : (⟨0, ![]⟩ : Shape).BroadcastsInDim ⟨1, ![8]⟩ (![] : Fin 0 → Fin (⟨1, ![8]⟩ : Shape).rank))
    (h0 : (⟨1, ![8]⟩ : Shape).ReducesTo [0] ⟨0, ![]⟩)
    (p q : FVec Ideal ⟨2, ![8, 4096]⟩ .f32) : FVec Ideal ⟨0, ![]⟩ .f32 :=
  Host.divf
    (Host.reduceAdd
      (addf
        (Host.divf (Host.reduceAdd p (constant (F := Ideal) ⟨0, ![]⟩ .f32 0x00000000#32) h1 hS)
          (broadcastInDim ⟨1, ![8]⟩ ![] hb (constant (F := Ideal) ⟨0, ![]⟩ .f32 0x45800000#32)))
        (Host.divf (Host.reduceAdd q (constant (F := Ideal) ⟨0, ![]⟩ .f32 0x00000000#32) h1 hS)
          (broadcastInDim ⟨1, ![8]⟩ ![] hb (constant (F := Ideal) ⟨0, ![]⟩ .f32 0x45800000#32))))
      (constant (F := Ideal) ⟨0, ![]⟩ .f32 0x00000000#32) h0 hS)
    (constant (F := Ideal) ⟨0, ![]⟩ .f32 0x41000000#32)

end Cert.Spec

end
-- ==== Proof.KITail.lean ====
/-
  The host operations after the kernel region, read back: the program's result is the shared closing chain of the two
  output arrays, each first reshaped [8, 1, 4096] → [8, 4096].
-/
import proofs.«153870_j14293651161196_1_alg».proof.Proof.Gen.KernelIdeal.Frame
import proofs.«153870_j14293651161196_1_alg».proof.Proof.Spec
import Idealize.ShloMosaic.Lib.StableHlo.Run
import Idealize.ShloMosaic.Lib.Pipeline.Value

set_option maxRecDepth 16384

noncomputable section

namespace Cert.KernelIdeal.Tail

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Dropping the unit middle axis: an [8, 1, 4096] array whose entry (b, 0, n) is `r (b, n)`, taken in row-major order
    at shape [8, 4096], is `r` (the two positions are both `b * 4096 + n`). -/
private theorem reshape_eq (A : FVec Ideal S8x1x4096 .f32) (r : FVec Ideal S8x4096 .f32)
    (h : ∀ (b : Fin 8) (n : Fin 4096), A (ix3 b 0 n) = r (ix2 b n)) :
    shapeCast S8x4096 A shapeCasts_S8x1x4096_S8x4096 = r := by
  funext i
  obtain ⟨b, n, rfl⟩ : ∃ (b : Fin 8) (n : Fin 4096), i = ix2 b n := ⟨i 0, i 1, eq_ix2 i⟩
  refine (shapeCast_apply A shapeCasts_S8x1x4096_S8x4096 (ix2 b n) (ix3 b 0 n) ?_).trans (h b n)
  rw [Shape.rowMajor_val_three, Shape.rowMajor_val_two]
  show ((b : ℕ) * 1 + 0) * 4096 + (n : ℕ) = (b : ℕ) * 4096 + (n : ℕ)
  omega

/-- Whatever proof data the region ran with: if its two output arrays end, entry by entry, at `p` and `q` (the unit
    middle axis dropped), the program's result buffer ends at the closing chain of `p` and `q`. -/
theorem tail_eq (dats : (p : Fin 1) → (c : Dev nD) → Dat τ (Elt Ideal) Unit ℕ (UR sig nD τ) ℕ (cfgs p) c) (c : Dev nD)
    (p q : FVec Ideal S8x4096 .f32)
    (hp : ∀ (b : Fin 8) (n : Fin 4096), (dats 0 c).arrAt 2 cfg0.N (ix3 b 0 n) = p (ix2 b n))
    (hq : ∀ (b : Fin 8) (n : Fin 4096), (dats 0 c).arrAt 3 cfg0.N (ix3 b 0 n) = q (ix2 b n)) :
    Pipeline.afterTail₀ cfgs dats 0 (V0 m) [hostOps1] c main_v11
      = Cert.Spec.total reducesTo_S8x4096_S8_d1 h_S_ bcast_S_S8 reducesTo_S8_S_d0 p q := by
  unfold Pipeline.afterTail₀
  simp only [List.flatten_cons, List.flatten_nil, List.append_nil]
  after_results
  have hW0 : Pipeline.withArrays (cfgs 0).spec c (V0 m c) (fun w => (dats 0 c).arrAt w (cfgs 0).N) (Proc.devRef .tc main_v0_0)
      = (dats 0 c).arrAt 2 cfg0.N := Pipeline.withArrays_arr spec0 launch0.win.arr_inj c _ _ 2
  have hW1 : Pipeline.withArrays (cfgs 0).spec c (V0 m c) (fun w => (dats 0 c).arrAt w (cfgs 0).N) (Proc.devRef .tc main_v0_1)
      = (dats 0 c).arrAt 3 cfg0.N := Pipeline.withArrays_arr spec0 launch0.win.arr_inj c _ _ 3
  rw [hW0, hW1]
  have hP := reshape_eq ((dats 0 c).arrAt 2 cfg0.N) p hp
  have hQ := reshape_eq ((dats 0 c).arrAt 3 cfg0.N) q hq
  unfold Cert.Spec.total
  rw [← hP, ← hQ]
  rfl

end Cert.KernelIdeal.Tail

end
-- ==== Proof.LibMinReduce.lean ====
/-
  A float minimum-reduction over one axis, read at the extended reals at an index given by coordinates: the fold of `min`
  from the accumulator's value over that axis's coordinates. For a kernel's lane reduction over the columns or over the rows
  of a matrix, and for the host's `reduce` with a minimum body over the last or the middle axis of a rank-3 array.
-/
import Idealize.ShloMosaic.Lib.ValueIdx
import Idealize.ShloMosaic.PureOps.Ideal.Laws

namespace Idealize.ShloMosaic.ValueIdx

open Idealize.ShloMosaic

/-- A float `multi_reduction <minimumf>` over one axis at the extended reals: the fold of `min` from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Over the COLUMNS of an `[a, b]` matrix: in row `r`, the minimum of that row. -/
theorem multiReduction_min_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) fun c => src (ix2 r c) :=
  (multiReduction_minimumf_single src acc h hφ hacc (ix1 r)).trans
    (Finset.fold_congr fun c _ => congrArg src (funext fun ax => Fin.ext (by
      match ax with
      | ⟨0, _⟩ => rfl
      | ⟨1, _⟩ => rfl)))

/-- Over the ROWS of an `[a, b]` matrix: in column `j`, the minimum of that column. -/
theorem multiReduction_min_rows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (j : Fin b) :
    multiReduction .minimumf [0] ⟨1, ![b]⟩ src acc h hφ hacc (ix1 j)
      = (Finset.univ : Finset (Fin a)).fold min (Ideal.ofBits .f32 acc) fun r => src (ix2 r j) :=
  (multiReduction_minimumf_single src acc h hφ hacc (ix1 j)).trans
    (Finset.fold_congr fun c _ => congrArg src (funext fun ax => Fin.ext (by
      match ax with
      | ⟨0, _⟩ => rfl
      | ⟨1, _⟩ => rfl)))

/-- The host's `reduce` with a minimum body over the LAST axis of an `[a, b, c]` array: at `(i, j)`, the minimum from the
    initial value over `k` of the entries `(i, j, k)`. -/
theorem hostReduce_min_last_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.minimumf x init h' hu (ix2 i j)
      = (Finset.univ : Finset (Fin c)).fold min (init (Shape.Idx.first hu)) fun k => x (ix3 i j k) :=
  (Host.reduce_eq_fold_single FloatOps.minimumf x init h' h hu (ix2 i j)).trans
    (Finset.fold_congr fun k _ => congrArg x (funext fun ax => Fin.ext (by
      match ax with
      | ⟨0, _⟩ => rfl
      | ⟨1, _⟩ => rfl
      | ⟨2, _⟩ => rfl)))

/-- The same over the MIDDLE axis: at `(i, k)`, the minimum from the initial value over `j` of the entries `(i, j, k)`. -/
theorem hostReduce_min_mid_apply {a b c : ℕ} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce FloatOps.minimumf x init h' hu (ix2 i k)
      = (Finset.univ : Finset (Fin b)).fold min (init (Shape.Idx.first hu)) fun j => x (ix3 i j k) :=
  (Host.reduce_eq_fold_single FloatOps.minimumf x init h' h hu (ix2 i k)).trans
    (Finset.fold_congr fun j _ => congrArg x (funext fun ax => Fin.ext (by
      match ax with
      | ⟨0, _⟩ => rfl
      | ⟨1, _⟩ => rfl
      | ⟨2, _⟩ => rfl)))

end Idealize.ShloMosaic.ValueIdx
-- ==== Proof.Payloads.lean ====
/-
  What the kernel body computes from one block of 512 points of the first cloud and the whole second cloud of a batch
  entry, read at an index over the extended reals.
-/
import proofs.«153870_j14293651161196_1_alg».proof.Proof.Gen.KernelIdeal.Skeleton
import proofs.«153870_j14293651161196_1_alg».proof.Proof.Spec
import proofs.«153870_j14293651161196_1_alg».proof.Proof.LibMinReduce
import Idealize.ShloMosaic.Lib.ValueLayout

noncomputable section

namespace Cert.KernelIdeal.Pay

open Idealize.ShloMosaic Idealize.ShloMosaic.ValueIdx Cert.KernelIdeal Cert.KernelIdeal.Gen

/-! ## Layout operations at coordinates: the unit axes this body adds -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`, whatever the unit coordinates. -/
private theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sums and the tile's product, at coordinates -/

/-- A float sum over the COLUMNS of an `[a, b]` matrix: in row `r`, the sum of that row. -/
private theorem multiReduction_add_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (funext fun ax => Fin.ext (by
      match ax with
      | ⟨0, _⟩ => rfl
      | ⟨1, _⟩ => rfl)))

/-- The product's left operand index on its kept axis: the result's row. -/
private theorem lhs_tile_0 (i : S512x4096.Idx) (q : dot_S512x3_S4096x3_S512x4096_1_1_0_0_n_n.contr.Idx) :
    (dot_S512x3_S4096x3_S512x4096_1_1_0_0_n_n.lhsIdx i q 0).val = (i 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl
/-- On its contracted axis: the contraction position. -/
private theorem lhs_tile_1 (i : S512x4096.Idx) (q : dot_S512x3_S4096x3_S512x4096_1_1_0_0_n_n.contr.Idx) :
    (dot_S512x3_S4096x3_S512x4096_1_1_0_0_n_n.lhsIdx i q 1).val = (q ⟨0, by decide⟩).val :=
  dot_S512x3_S4096x3_S512x4096_1_1_0_0_n_n.lhsIdx_val_of_single rfl i q
/-- The right operand index on its kept axis: the result's column. -/
private theorem rhs_tile_0 (i : S512x4096.Idx) (q : dot_S512x3_S4096x3_S512x4096_1_1_0_0_n_n.contr.Idx) :
    (dot_S512x3_S4096x3_S512x4096_1_1_0_0_n_n.rhsIdx i q 0).val = (i 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl
/-- On its contracted axis: the contraction position. -/
private theorem rhs_tile_1 (i : S512x4096.Idx) (q : dot_S512x3_S4096x3_S512x4096_1_1_0_0_n_n.contr.Idx) :
    (dot_S512x3_S4096x3_S512x4096_1_1_0_0_n_n.rhsIdx i q 1).val = (q ⟨0, by decide⟩).val :=
  dot_S512x3_S4096x3_S512x4096_1_1_0_0_n_n.rhsIdx_val_of_single rfl i q

/-- The tile's product into a zero accumulator, contracting the three columns of both operands: at `(r, m)` the inner
    product of row `r` of the left operand and row `m` of the right. -/
private theorem matmul_tile_apply (A : FVec Ideal S512x3 .bf16) (B : FVec Ideal S4096x3 .bf16) (r : Fin 512) (m : Fin 4096) :
    matmul dot_S512x3_S4096x3_S512x4096_1_1_0_0_n_n none A B (constant (F := Ideal) S512x4096 .f32 0x00000000#32) (ix2 r m)
      = ∑ d : Fin 3, A (ix2 r d) * B (ix2 m d) := by
  simp only [matmul]
  rw [Ideal.matmul_constant_zero_apply, ← Equiv.sum_comp (contrEquiv1 dot_S512x3_S4096x3_S512x4096_1_1_0_0_n_n 3 rfl rfl).symm]
  refine Finset.sum_congr rfl fun k _ => ?_
  have hk := contrEquiv1_symm_val dot_S512x3_S4096x3_S512x4096_1_1_0_0_n_n 3 rfl rfl k
  have el : dot_S512x3_S4096x3_S512x4096_1_1_0_0_n_n.lhsIdx (ix2 r m) ((contrEquiv1 dot_S512x3_S4096x3_S512x4096_1_1_0_0_n_n 3 rfl rfl).symm k) = ix2 r k := funext fun a => Fin.ext (by
    match a with
    | ⟨0, _⟩ => exact lhs_tile_0 _ _
    | ⟨1, _⟩ => exact (lhs_tile_1 _ _).trans hk)
  have er : dot_S512x3_S4096x3_S512x4096_1_1_0_0_n_n.rhsIdx (ix2 r m) ((contrEquiv1 dot_S512x3_S4096x3_S512x4096_1_1_0_0_n_n 3 rfl rfl).symm k) = ix2 m k := funext fun a => Fin.ext (by
    match a with
    | ⟨0, _⟩ => exact rhs_tile_0 _ _
    | ⟨1, _⟩ => exact (rhs_tile_1 _ _).trans hk)
  rw [el, er]

/-! ## The tile of clipped squared distances -/

/-- The column of squared norms of the block's rows, as the tile reads it at `(r, m)`: the squared norm of row `r`. -/
private theorem norm0_apply (x0 : Vec Ideal S1x512x3 .f32) (r : Fin 512) (m : Fin 4096) :
    broadcastTo S512x4096
        (shapeCast S512x1
          (multiReduction (F := Ideal) .add [1] S512
            (mulf (shapeCast S512x3 x0 shapeCasts_S1x512x3_S512x3) (shapeCast S512x3 x0 shapeCasts_S1x512x3_S512x3))
            0x00000000#32 reduces_S512x3_S512 (.inl rfl) rfl)
          shapeCasts_S512_S512x1)
        broadcasts_S512x1_S512x4096 (ix2 r m)
      = ∑ d : Fin 3, x0 (ix3 0 r d) * x0 (ix3 0 r d) :=
  (broadcastTo_a1_ab_apply _ broadcasts_S512x1_S512x4096 r m).trans <|
  (shapeCast_a_a1_apply _ shapeCasts_S512_S512x1 r 0).trans <|
  (multiReduction_add_cols_apply _ _ reduces_S512x3_S512 _ _ r).trans <|
  Finset.sum_congr rfl fun d _ =>
    congrArg (fun t => t * t) (shapeCast_1ab_ab_apply x0 shapeCasts_S1x512x3_S512x3 r d)

/-- The row of squared norms of the second cloud's points, as the tile reads it at `(r, m)`: the squared norm of point `m`. -/
private theorem norm1_apply (x1 : Vec Ideal S1x4096x3 .f32) (r : Fin 512) (m : Fin 4096) :
    broadcastTo S512x4096
        (shapeCast S1x4096
          (multiReduction (F := Ideal) .add [1] S4096
            (mulf (shapeCast S4096x3 x1 shapeCasts_S1x4096x3_S4096x3) (shapeCast S4096x3 x1 shapeCasts_S1x4096x3_S4096x3))
            0x00000000#32 reduces_S4096x3_S4096 (.inl rfl) rfl)
          shapeCasts_S4096_S1x4096)
        broadcasts_S1x4096_S512x4096 (ix2 r m)
      = ∑ d : Fin 3, x1 (ix3 0 m d) * x1 (ix3 0 m d) :=
  (broadcastTo_1b_ab_apply _ broadcasts_S1x4096_S512x4096 r m).trans <|
  (shapeCast_a_1a_apply _ shapeCasts_S4096_S1x4096 0 m).trans <|
  (multiReduction_add_cols_apply _ _ reduces_S4096x3_S4096 _ _ m).trans <|
  Finset.sum_congr rfl fun d _ =>
    congrArg (fun t => t * t) (shapeCast_1ab_ab_apply x1 shapeCasts_S1x4096x3_S4096x3 m d)

/-- The tile's product at `(r, m)`: the inner product of row `r` of the block and point `m` of the second cloud (the
    narrowing of the operands is the identity on extended reals). -/
private theorem inner_apply (x0 : Vec Ideal S1x512x3 .f32) (x1 : Vec Ideal S1x4096x3 .f32) (r : Fin 512) (m : Fin 4096) :
    matmul dot_S512x3_S4096x3_S512x4096_1_1_0_0_n_n none
        (truncf (F := Ideal) .bf16 (shapeCast S512x3 x0 shapeCasts_S1x512x3_S512x3) bitsLt_bf16_f32)
        (truncf (F := Ideal) .bf16 (shapeCast S4096x3 x1 shapeCasts_S1x4096x3_S4096x3) bitsLt_bf16_f32)
        (constant (F := Ideal) S512x4096 .f32 0x00000000#32) (ix2 r m)
      = ∑ d : Fin 3, x0 (ix3 0 r d) * x1 (ix3 0 m d) :=
  (matmul_tile_apply _ _ r m).trans <|
  Finset.sum_congr rfl fun d _ =>
    congrArg₂ (fun s t : EReal => s * t) (shapeCast_1ab_ab_apply x0 shapeCasts_S1x512x3_S512x3 r d)
      (shapeCast_1ab_ab_apply x1 shapeCasts_S1x4096x3_S4096x3 m d)

/-- The tile at `(r, m)`: the clipped squared distance between row `r` of the block and point `m` of the second cloud. -/
theorem pay2_apply (x0 : Vec Ideal S1x512x3 .f32) (x1 : Vec Ideal S1x4096x3 .f32) (r : Fin 512) (m : Fin 4096) :
    k0_pay2 (F := Ideal) x0 x1 (ix2 r m) = Cert.Spec.pairDist x0 x1 r m :=
  congrArg₂ (fun s t : EReal => max s t)
    (congrArg₂ (fun s t : EReal => s - t)
      (congrArg₂ (fun s t : EReal => s + t) (norm0_apply x0 r m) (norm1_apply x1 r m))
      (congrArg (fun t : EReal => Ideal.ofBits .f32 0x40000000#32 * t) (inner_apply x0 x1 r m)))
    rfl

/-- The row minima of the tile of clipped squared distances: row `r` of the block against every point of the second cloud. -/
theorem pay3_apply (x0 : Vec Ideal S1x512x3 .f32) (x1 : Vec Ideal S1x4096x3 .f32) (r : Fin 512) :
    k0_pay3 (F := Ideal) x0 x1 (ix3 0 0 r)
      = (Finset.univ : Finset (Fin 4096)).fold min Cert.Spec.inf fun m => Cert.Spec.pairDist x0 x1 r m := by
  unfold k0_pay3
  refine (shapeCast_a_11a_apply _ shapeCasts_S512_S1x1x512 0 0 r).trans ?_
  refine (multiReduction_min_cols_apply _ _ reduces_S512x4096_S512 _ _ r).trans ?_
  exact Finset.fold_congr fun m _ => pay2_apply x0 x1 r m

/-- The column minima of the tile: point `m` of the second cloud against the 512 rows of the block. -/
theorem pay4_apply (x0 : Vec Ideal S1x512x3 .f32) (x1 : Vec Ideal S1x4096x3 .f32) (m : Fin 4096) :
    k0_pay4 (F := Ideal) x0 x1 (ix2 0 m)
      = (Finset.univ : Finset (Fin 512)).fold min Cert.Spec.inf fun r => Cert.Spec.pairDist x0 x1 r m := by
  unfold k0_pay4
  refine (shapeCast_a_1a_apply _ shapeCasts_S4096_S1x4096 0 m).trans ?_
  refine (multiReduction_min_rows_apply _ _ reduces_S512x4096_S4096 _ _ m).trans ?_
  exact Finset.fold_congr fun r _ => pay2_apply x0 x1 r m

/-- The first tile's store into the accumulator is the tile's column minima (a reshape to the same shape). -/
theorem pay5_eq (x0 : Vec Ideal S1x512x3 .f32) (x1 : Vec Ideal S1x4096x3 .f32) :
    k0_pay5 (F := Ideal) x0 x1 = k0_pay4 (F := Ideal) x0 x1 :=
  shapeCast_self (k0_pay4 (F := Ideal) x0 x1) shapeCasts_S1x4096_S1x4096

/-- A later tile's store: the accumulator's entry against the tile's column minimum. -/
theorem pay6_apply (x0 : Vec Ideal S1x512x3 .f32) (x1 : Vec Ideal S1x4096x3 .f32) (s : Vec Ideal S1x4096 .f32) (m : Fin 4096) :
    k0_pay6 (F := Ideal) x0 x1 s (ix2 0 m) = min (s (ix2 0 m)) (k0_pay4 (F := Ideal) x0 x1 (ix2 0 m)) :=
  congrFun (shapeCast_self (minimumf (F := Ideal) s (k0_pay4 (F := Ideal) x0 x1)) shapeCasts_S1x4096_S1x4096) (ix2 0 m)

/-- The last tile's copy of the accumulator into the output block: a reshape [1, 4096] → [1, 1, 4096]. -/
theorem pay1_apply (s : Vec Ideal S1x4096 .f32) (m : Fin 4096) :
    k0_pay1 (F := Ideal) s (ix3 0 0 m) = s (ix2 0 m) :=
  (shapeCast_a_11a_apply (shapeCast S4096 s shapeCasts_S1x4096_S4096) shapeCasts_S4096_S1x1x4096 0 0 m).trans
    (shapeCast_1a_a_apply s shapeCasts_S1x4096_S4096 m)

end Cert.KernelIdeal.Pay

end
-- ==== Proof.LibTileFold.lean ====
import Mathlib.Data.Finset.Fold
import Mathlib.Data.Fintype.Basic
import Mathlib.Order.Basic
import Mathlib.Order.MinMax
import Mathlib.Tactic.Ring

/-!
# A maximum (minimum) folded tile by tile

Let `N = a * n` entries `f 0, …, f (N - 1)` of a linear order be cut into `a` consecutive tiles
of `n` entries each: tile `q` holds the entries `f (q * n + c)`, `c < n`.  Fix a start value `b`.

Write `T q = max b (f (q * n)) … (f (q * n + n - 1))` for the maximum of tile `q` taken from `b`.
A running maximum `M 0 = max b (T 0)`, `M (q + 1) = max (M q) (T (q + 1))` then ends, after the
last tile, at the maximum from `b` of all `N` entries:

  `M (a - 1) = max b (f 0) … (f (N - 1))`.

The proof compares upper bounds.  An element `z` bounds `M q` from above exactly when it bounds
`b` and every entry of the tiles `0, …, q`; it bounds the whole maximum exactly when it bounds `b`
and every entry.  Every index `j < a * n` is `(j / n) * n + j % n` with `j / n < a` and `j % n < n`,
so the entries of the tiles `0, …, a - 1` are all the entries, the two sets of upper bounds agree,
and two elements of a partial order with the same upper bounds are equal.  (If `n = 0` there is no
entry at all and both sides are `b`; the argument covers this case without a separate branch.)

The statement for a running minimum is the order dual, proved the same way with lower bounds.
-/

namespace Cert.LibTileFold

/-- Entry `c` of tile `q` (of `a` tiles of `n` entries) has a position `q * n + c` below
    `N = a * n`. -/
theorem tile_index_lt {a n N q : ℕ} (hN : a * n = N) (hq : q < a) (c : Fin n) :
    q * n + c.val < N :=
  calc q * n + c.val < q * n + n := Nat.add_lt_add_left c.isLt _
    _ = (q + 1) * n := (Nat.succ_mul q n).symm
    _ ≤ a * n := Nat.mul_le_mul_right _ hq
    _ = N := hN

/-- A property holds at every position below `N = a * n` exactly when it holds at every entry of
    every one of the `a` tiles of `n` entries: position `j` is entry `j % n` of tile `j / n`. -/
theorem forall_fin_iff_forall_tiles {a n N : ℕ} (hN : a * n = N) (P : Fin N → Prop) :
    (∀ j : Fin N, P j) ↔
      ∀ (q : ℕ) (hq : q < a) (c : Fin n), P ⟨q * n + c.val, tile_index_lt hN hq c⟩ := by
  constructor
  · intro h q hq c
    exact h _
  · intro h j
    -- a position exists, so the tiles are not empty
    have hn : 0 < n := by
      rcases Nat.eq_zero_or_pos n with hn0 | hn
      · exfalso
        have hj : j.val < a * n := Nat.lt_of_lt_of_eq j.isLt hN.symm
        rw [hn0, Nat.mul_zero] at hj
        exact Nat.not_lt_zero _ hj
      · exact hn
    have hq : j.val / n < a :=
      Nat.div_lt_of_lt_mul (Nat.lt_of_lt_of_eq j.isLt (hN.symm.trans (Nat.mul_comm a n)))
    have hP := h (j.val / n) hq ⟨j.val % n, Nat.mod_lt _ hn⟩
    have transport : ∀ k : Fin N, k = j → P k → P j := fun k hk hp => hk ▸ hp
    exact transport _ (Fin.ext (Nat.div_add_mod' j.val n)) hP

/-- Upper bounds of a running maximum: `z` bounds `M q` exactly when it bounds the start value
    `b` and every entry of the tiles `0, …, q`. -/
theorem running_max_le_iff {α : Type*} [LinearOrder α] (b : α) {a n : ℕ} (g : ℕ → Fin n → α)
    (M : ℕ → α) (h0 : M 0 = max b ((Finset.univ : Finset (Fin n)).fold max b (g 0)))
    (hs : ∀ q, q + 1 < a →
      M (q + 1) = max (M q) ((Finset.univ : Finset (Fin n)).fold max b (g (q + 1))))
    (z : α) :
    ∀ q, q < a → (M q ≤ z ↔ b ≤ z ∧ ∀ q', q' ≤ q → ∀ c, g q' c ≤ z) := by
  intro q
  induction q with
  | zero =>
    intro _
    rw [h0, max_le_iff, Finset.fold_max_le]
    constructor
    · rintro ⟨hb, -, hc⟩
      refine ⟨hb, fun q' hq' c => ?_⟩
      obtain rfl : q' = 0 := Nat.le_zero.mp hq'
      exact hc c (Finset.mem_univ c)
    · rintro ⟨hb, hc⟩
      exact ⟨hb, hb, fun c _ => hc 0 (Nat.le_refl 0) c⟩
  | succ q ih =>
    intro hq
    rw [hs q hq, max_le_iff, Finset.fold_max_le, ih (Nat.lt_of_succ_lt hq)]
    constructor
    · rintro ⟨⟨hb, hc⟩, -, hc'⟩
      refine ⟨hb, fun q' hq' c => ?_⟩
      rcases Nat.lt_or_eq_of_le hq' with hlt | rfl
      · exact hc q' (Nat.le_of_lt_succ hlt) c
      · exact hc' c (Finset.mem_univ c)
    · rintro ⟨hb, hc⟩
      exact ⟨⟨hb, fun q' hq' c => hc q' (Nat.le_succ_of_le hq') c⟩, hb,
        fun c _ => hc (q + 1) (Nat.le_refl _) c⟩

/-- Lower bounds of a running minimum: `z` bounds `M q` from below exactly when it bounds the
    start value `b` and every entry of the tiles `0, …, q` from below. -/
theorem le_running_min_iff {α : Type*} [LinearOrder α] (b : α) {a n : ℕ} (g : ℕ → Fin n → α)
    (M : ℕ → α) (h0 : M 0 = min b ((Finset.univ : Finset (Fin n)).fold min b (g 0)))
    (hs : ∀ q, q + 1 < a →
      M (q + 1) = min (M q) ((Finset.univ : Finset (Fin n)).fold min b (g (q + 1))))
    (z : α) :
    ∀ q, q < a → (z ≤ M q ↔ z ≤ b ∧ ∀ q', q' ≤ q → ∀ c, z ≤ g q' c) := by
  intro q
  induction q with
  | zero =>
    intro _
    rw [h0, le_min_iff, Finset.le_fold_min]
    constructor
    · rintro ⟨hb, -, hc⟩
      refine ⟨hb, fun q' hq' c => ?_⟩
      obtain rfl : q' = 0 := Nat.le_zero.mp hq'
      exact hc c (Finset.mem_univ c)
    · rintro ⟨hb, hc⟩
      exact ⟨hb, hb, fun c _ => hc 0 (Nat.le_refl 0) c⟩
  | succ q ih =>
    intro hq
    rw [hs q hq, le_min_iff, Finset.le_fold_min, ih (Nat.lt_of_succ_lt hq)]
    constructor
    · rintro ⟨⟨hb, hc⟩, -, hc'⟩
      refine ⟨hb, fun q' hq' c => ?_⟩
      rcases Nat.lt_or_eq_of_le hq' with hlt | rfl
      · exact hc q' (Nat.le_of_lt_succ hlt) c
      · exact hc' c (Finset.mem_univ c)
    · rintro ⟨hb, hc⟩
      exact ⟨⟨hb, fun q' hq' c => hc q' (Nat.le_succ_of_le hq') c⟩, hb,
        fun c _ => hc (q + 1) (Nat.le_refl _) c⟩

/-- A running maximum over `a` tiles of `n` entries each — started as
    `max b (first tile's maximum from b)`, each later step
    `max (previous) (that tile's maximum from b)` — ends at the maximum from `b` of all
    `N = a * n` entries. -/
theorem fold_max_tiles {α : Type*} [LinearOrder α] (b : α) {a n N : ℕ} (hN : a * n = N) (ha : 0 < a)
    (f : Fin N → α) (g : ℕ → Fin n → α)
    (hg : ∀ (q : ℕ) (hq : q < a) (c : Fin n), g q c = f ⟨q * n + c.val, by
      calc q * n + c.val < q * n + n := Nat.add_lt_add_left c.isLt _
        _ = (q + 1) * n := by ring
        _ ≤ a * n := Nat.mul_le_mul_right _ hq
        _ = N := hN⟩)
    (M : ℕ → α) (h0 : M 0 = max b ((Finset.univ : Finset (Fin n)).fold max b (g 0)))
    (hs : ∀ q, q + 1 < a →
      M (q + 1) = max (M q) ((Finset.univ : Finset (Fin n)).fold max b (g (q + 1)))) :
    M (a - 1) = (Finset.univ : Finset (Fin N)).fold max b f := by
  -- equal because they have the same upper bounds
  refine eq_of_forall_ge_iff fun z => ?_
  rw [running_max_le_iff b g M h0 hs z (a - 1) (Nat.sub_lt ha Nat.one_pos), Finset.fold_max_le]
  refine and_congr_right fun _ => ?_
  have huniv : (∀ x ∈ (Finset.univ : Finset (Fin N)), f x ≤ z) ↔ ∀ x : Fin N, f x ≤ z :=
    ⟨fun h x => h x (Finset.mem_univ x), fun h x _ => h x⟩
  rw [huniv, forall_fin_iff_forall_tiles hN (fun j => f j ≤ z)]
  constructor
  · intro h q hq c
    have hgq := hg q hq c
    have hle := h q (Nat.le_sub_one_of_lt hq) c
    rw [hgq] at hle
    exact hle
  · intro h q hq c
    have hqa : q < a := Nat.lt_of_le_of_lt hq (Nat.sub_lt ha Nat.one_pos)
    rw [hg q hqa c]
    exact h q hqa c

/-- The same for a running minimum: a running minimum over `a` tiles of `n` entries each — started
    as `min b (first tile's minimum from b)`, each later step
    `min (previous) (that tile's minimum from b)` — ends at the minimum from `b` of all
    `N = a * n` entries. -/
theorem fold_min_tiles {α : Type*} [LinearOrder α] (b : α) {a n N : ℕ} (hN : a * n = N) (ha : 0 < a)
    (f : Fin N → α) (g : ℕ → Fin n → α)
    (hg : ∀ (q : ℕ) (hq : q < a) (c : Fin n), g q c = f ⟨q * n + c.val, by
      calc q * n + c.val < q * n + n := Nat.add_lt_add_left c.isLt _
        _ = (q + 1) * n := by ring
        _ ≤ a * n := Nat.mul_le_mul_right _ hq
        _ = N := hN⟩)
    (M : ℕ → α) (h0 : M 0 = min b ((Finset.univ : Finset (Fin n)).fold min b (g 0)))
    (hs : ∀ q, q + 1 < a →
      M (q + 1) = min (M q) ((Finset.univ : Finset (Fin n)).fold min b (g (q + 1)))) :
    M (a - 1) = (Finset.univ : Finset (Fin N)).fold min b f := by
  -- equal because they have the same lower bounds
  refine eq_of_forall_le_iff fun z => ?_
  rw [le_running_min_iff b g M h0 hs z (a - 1) (Nat.sub_lt ha Nat.one_pos), Finset.le_fold_min]
  refine and_congr_right fun _ => ?_
  have huniv : (∀ x ∈ (Finset.univ : Finset (Fin N)), z ≤ f x) ↔ ∀ x : Fin N, z ≤ f x :=
    ⟨fun h x => h x (Finset.mem_univ x), fun h x _ => h x⟩
  rw [huniv, forall_fin_iff_forall_tiles hN (fun j => z ≤ f j)]
  constructor
  · intro h q hq c
    have hgq := hg q hq c
    have hle := h q (Nat.le_sub_one_of_lt hq) c
    rw [hgq] at hle
    exact hle
  · intro h q hq c
    have hqa : q < a := Nat.lt_of_le_of_lt hq (Nat.sub_lt ha Nat.one_pos)
    rw [hg q hqa c]
    exact h q hqa c

end Cert.LibTileFold
-- ==== Proof.KIValue.lean ====
/-
  The idealized kernel's result, read off its frame run.

  Point t = 8·b + i works on batch entry b and tile i. The first output's block at t is the tile's row minima, which are
  the minima over the whole second cloud for the tile's 512 points: so the first output array ends at `near1`. The
  scratch row after point t is, entry by entry, the minimum over the tiles 0 … i of batch entry b of the tile's column
  minima (a running minimum, reset at i = 0); a minimum over a range cut into tiles is the running minimum tile by tile,
  so after i = 7 it is the minimum over the whole first cloud, and the second output array ends at `near2`. The host
  operations after the region are the closing chain both programs share.
-/
import proofs.«153870_j14293651161196_1_alg».proof.Proof.KIPieces
import proofs.«153870_j14293651161196_1_alg».proof.Proof.KIGeom
import proofs.«153870_j14293651161196_1_alg».proof.Proof.KITail
import proofs.«153870_j14293651161196_1_alg».proof.Proof.Payloads
import proofs.«153870_j14293651161196_1_alg».proof.Proof.LibTileFold

set_option maxRecDepth 16384

noncomputable section

namespace Cert.KernelIdeal.Val

open Cert.KernelIdeal Cert.KernelIdeal.Gen Cert.KernelIdeal.Body Cert.KernelIdeal.Geom Cert.KernelIdeal.Pay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays and the blocks, at their literal types -/

/-- The first cloud and the second, as the region finds them. -/
abbrev X (c : Dev nD) : FVec Ideal S8x4096x3 .f32 := V m c main_arg0
abbrev Y (c : Dev nD) : FVec Ideal S8x4096x3 .f32 := V m c main_arg1
/-- The two input blocks at a point. -/
abbrev xblk (c : Dev nD) (t : Fin cfg0.N) : Vec Ideal S1x512x3 .f32 := iblk m c 0 t
abbrev yblk (c : Dev nD) (t : Fin cfg0.N) : Vec Ideal S1x4096x3 .f32 := iblk m c 1 t

/-- Between the blocks of point `t`, the clipped squared distance is the one between the whole arrays' points. -/
theorem pairDist_blocks (c : Dev nD) (t : Fin cfg0.N) (r : Fin 512) (p : Fin 4096) :
    Cert.Spec.pairDist (a := 512) (b := 4096) (xblk m c t) (yblk m c t) r p
      = Cert.Spec.dist (X m c) (Y m c) (bOf t) (rowOf t r) p := by
  unfold Cert.Spec.pairDist Cert.Spec.dist
  have e0 : ∀ d : Fin 3, xblk m c t (ix3 0 r d) = X m c (ix3 (bOf t) (rowOf t r) d) := fun d => iblk0_apply m c t r d
  have e1 : ∀ d : Fin 3, yblk m c t (ix3 0 p d) = Y m c (ix3 (bOf t) p d) := fun d => iblk1_apply m c t p d
  simp only [e0, e1]

/-- The tile's row minima at point `t`: for row `r`, the minimum over the whole second cloud. -/
theorem rowMin_blocks (c : Dev nD) (t : Fin cfg0.N) (r : Fin 512) :
    k0_pay3 (F := Ideal) (xblk m c t) (yblk m c t) (ix3 0 0 r)
      = Cert.Spec.near1 (X m c) (Y m c) (ix2 (bOf t) (rowOf t r)) :=
  (pay3_apply (xblk m c t) (yblk m c t) r).trans (Finset.fold_congr fun p _ => pairDist_blocks m c t r p)

/-- The tile's column minima at point `t`: for point `p` of the second cloud, the minimum over the tile's 512 rows. -/
theorem colMin_blocks (c : Dev nD) (t : Fin cfg0.N) (p : Fin 4096) :
    k0_pay4 (F := Ideal) (xblk m c t) (yblk m c t) (ix2 0 p)
      = (Finset.univ : Finset (Fin 512)).fold min Cert.Spec.inf fun r => Cert.Spec.dist (X m c) (Y m c) (bOf t) (rowOf t r) p :=
  (pay4_apply (xblk m c t) (yblk m c t) p).trans (Finset.fold_congr fun r _ => pairDist_blocks m c t r p)

/-! ## What the buffers hold after each point, named -/

/-- The first output's buffer after any point: the tile's row minima. -/
theorem out2_eq (c : Dev nD) (t : Fin cfg0.N) :
    (outsAt0 m c t.val t.isLt).1 = k0_pay3 (F := Ideal) (xblk m c t) (yblk m c t) := by
  by_cases h0 : t.val % 8 = 0
  · rw [outsAt0_A m c t h0]; unfold atA; dsimp only
    exact out0_A_2_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t)
  · by_cases h2 : t.val % 8 = 7
    · rw [outsAt0_C m c t h0 h2]; unfold atC; dsimp only
      exact out0_C_2_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) _
    · rw [outsAt0_B m c t h0 h2]; unfold atB; dsimp only
      exact out0_B_2_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) _

/-- The scratch row after position `n` (the start value of every minimum past the grid, where nothing reads it). -/
def accN (c : Dev nD) (n : ℕ) : Vec Ideal S1x4096 .f32 :=
  if h : n < cfg0.N then (outsAt0 m c n h).2.2 else fun _ => Cert.Spec.inf

theorem accN_of_lt (c : Dev nD) (n : ℕ) (h : n < cfg0.N) : accN m c n = (outsAt0 m c n h).2.2 := dif_pos h

/-- At a first tile the scratch row is reset to the tile's column minima. -/
theorem accN_first (c : Dev nD) (t : Fin cfg0.N) (h0 : t.val % 8 = 0) :
    accN m c t.val = k0_pay5 (F := Ideal) (xblk m c t) (yblk m c t) := by
  rw [accN_of_lt m c t.val t.isLt, outsAt0_A m c t h0]; unfold atA; dsimp only
  exact sout0_A_0_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => (hcond0_1 t).mp h h0) (fun h => by have h7 := (hcond0_2 t).mp h; (try dsimp only at h7 h0); omega) (iblk m c 0 t) (iblk m c 1 t)

/-- At a later tile it is what the tile before left, merged with this tile's column minima. -/
theorem accN_later (c : Dev nD) (t : Fin cfg0.N) (h0 : ¬t.val % 8 = 0) :
    accN m c t.val = k0_pay6 (F := Ideal) (xblk m c t) (yblk m c t) (accN m c (t.val - 1)) := by
  rw [accN_of_lt m c (t.val - 1) (Nat.lt_of_le_of_lt (Nat.sub_le _ _) t.isLt), accN_of_lt m c t.val t.isLt]
  by_cases h2 : t.val % 8 = 7
  · rw [outsAt0_C m c t h0 h2]; unfold atC; dsimp only
    exact sout0_C_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) _
  · rw [outsAt0_B m c t h0 h2]; unfold atB; dsimp only
    exact sout0_B_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) (fun h => h2 ((hcond0_2 t).mp h)) (iblk m c 0 t) (iblk m c 1 t) _

/-- The second output's buffer after a last tile: the merged scratch row, reshaped. -/
theorem out3_eq (c : Dev nD) (t : Fin cfg0.N) (h2 : t.val % 8 = 7) :
    (outsAt0 m c t.val t.isLt).2.1 = k0_pay1 (F := Ideal) (accN m c t.val) := by
  have h0 : ¬t.val % 8 = 0 := by omega
  rw [accN_later m c t h0, accN_of_lt m c (t.val - 1) (Nat.lt_of_le_of_lt (Nat.sub_le _ _) t.isLt)]
  rw [outsAt0_C m c t h0 h2]; unfold atC; dsimp only
  exact out0_C_3_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h0) ((hcond0_2 t).mpr h2) (iblk m c 0 t) (iblk m c 1 t) _

/-! ## The running minimum over the tiles of a batch entry -/

/-- The grid point of batch entry `b` and tile `q`. -/
def pt (b : Fin 8) (q : ℕ) (hq : q < 8) : Fin cfg0.N :=
  ⟨8 * b.val + q, lt_of_lt_of_eq (by have := b.isLt; omega) (show (64 : ℕ) = cfg0.N from N_0.symm)⟩

/-- Row `r` of tile `q` as a row of the whole cloud (tiles counted modulo 8, to have a function of every `q`). -/
def tileRow (q : ℕ) (r : Fin 512) : Fin 4096 :=
  ⟨q % 8 * 512 + r.val, by have := r.isLt; have := Nat.mod_lt q (by norm_num : 0 < 8); omega⟩

theorem bOf_pt (b : Fin 8) (q : ℕ) (hq : q < 8) : bOf (pt b q hq) = b :=
  Fin.ext (by show (8 * b.val + q) / 8 = b.val; omega)

theorem rowOf_pt (b : Fin 8) (q : ℕ) (hq : q < 8) (r : Fin 512) : rowOf (pt b q hq) r = tileRow q r :=
  Fin.ext (by show (8 * b.val + q) % 8 * 512 + r.val = q % 8 * 512 + r.val; omega)

/-- A minimum taken from `inf` is below `inf`. -/
theorem min_inf_fold {ι : Type} (s : Finset ι) (f : ι → EReal) :
    s.fold min Cert.Spec.inf f = min Cert.Spec.inf (s.fold min Cert.Spec.inf f) :=
  (min_eq_right ((Finset.fold_min_le _).mpr (Or.inl le_rfl))).symm

/-- After the first tile of batch entry `b`: the tile's column minima. -/
theorem acc_first (c : Dev nD) (b : Fin 8) (p : Fin 4096) :
    accN m c (8 * b.val + 0) (ix2 0 p)
      = (Finset.univ : Finset (Fin 512)).fold min Cert.Spec.inf fun r => Cert.Spec.dist (X m c) (Y m c) b (tileRow 0 r) p := by
  have h := accN_first m c (pt b 0 (by norm_num)) (by show (8 * b.val + 0) % 8 = 0; omega)
  have h' : accN m c (8 * b.val + 0) = k0_pay5 (F := Ideal) (xblk m c (pt b 0 (by norm_num))) (yblk m c (pt b 0 (by norm_num))) := h
  rw [h', pay5_eq, colMin_blocks]
  simp only [bOf_pt, rowOf_pt]

/-- After a later tile: what the tile before left, against this tile's column minima. -/
theorem acc_later (c : Dev nD) (b : Fin 8) (p : Fin 4096) (q : ℕ) (hq : q + 1 < 8) :
    accN m c (8 * b.val + (q + 1)) (ix2 0 p)
      = min (accN m c (8 * b.val + q) (ix2 0 p))
          ((Finset.univ : Finset (Fin 512)).fold min Cert.Spec.inf fun r => Cert.Spec.dist (X m c) (Y m c) b (tileRow (q + 1) r) p) := by
  have h := accN_later m c (pt b (q + 1) hq) (by show ¬(8 * b.val + (q + 1)) % 8 = 0; omega)
  have e : (pt b (q + 1) hq).val - 1 = 8 * b.val + q := by show 8 * b.val + (q + 1) - 1 = _; omega
  rw [e] at h
  have h' : accN m c (8 * b.val + (q + 1)) = k0_pay6 (F := Ideal) (xblk m c (pt b (q + 1) hq)) (yblk m c (pt b (q + 1) hq)) (accN m c (8 * b.val + q)) := h
  rw [h', pay6_apply, colMin_blocks]
  simp only [bOf_pt, rowOf_pt]

/-- After the last tile of batch entry `b` the scratch row is, entry by entry, the minimum over the whole first cloud. -/
theorem acc_last (c : Dev nD) (b : Fin 8) (p : Fin 4096) :
    accN m c (8 * b.val + 7) (ix2 0 p) = Cert.Spec.near2 (X m c) (Y m c) (ix2 b p) := by
  have key := Cert.LibTileFold.fold_min_tiles (α := EReal) Cert.Spec.inf (a := 8) (n := 512) (N := 4096) (by norm_num) (by norm_num)
    (fun n => Cert.Spec.dist (X m c) (Y m c) b n p)
    (fun q r => Cert.Spec.dist (X m c) (Y m c) b (tileRow q r) p)
    (fun q hq r => congrArg (fun n => Cert.Spec.dist (X m c) (Y m c) b n p)
      (Fin.ext (by show q % 8 * 512 + r.val = q * 512 + r.val; rw [Nat.mod_eq_of_lt hq])))
    (fun q => accN m c (8 * b.val + q) (ix2 0 p))
    ((acc_first m c b p).trans (min_inf_fold _ _))
    (fun q hq => acc_later m c b p q hq)
  exact key

/-! ## The two output arrays after the run -/

/-- The first output array's contents: at (b, 0, n), the least distance from point n of the first cloud. -/
def G2 (c : Dev nD) : S8x1x4096.Idx → EReal :=
  fun j => Cert.Spec.near1 (X m c) (Y m c) (ix2 (n0 := 8) (n1 := 4096) (j 0) (j 2))
/-- The second output array's contents: at (b, 0, p), the least distance from point p of the second cloud. -/
def G3 (c : Dev nD) : S8x1x4096.Idx → EReal :=
  fun j => Cert.Spec.near2 (X m c) (Y m c) (ix2 (n0 := 8) (n1 := 4096) (j 0) (j 2))

/-- What point `t` writes back to the first output array is its block of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, out2_eq]
  funext j
  obtain ⟨r, rfl⟩ : ∃ r : Fin 512, j = ix3 (n0 := 1) (n1 := 1) (n2 := 512) 0 0 r :=
    ⟨j 2, funext fun a => by
      match a with
      | ⟨0, _⟩ => exact Subsingleton.elim (α := Fin 1) _ _
      | ⟨1, _⟩ => exact Subsingleton.elim (α := Fin 1) _ _
      | ⟨2, _⟩ => rfl⟩
  show k0_pay3 (F := Ideal) (xblk m c t) (yblk m c t) (ix3 0 0 r) = G2 m c (((cfg0.win 2).blk t).view.emb (ix3 0 0 r))
  rw [emb2, rowMin_blocks]
  rfl

/-- What a last-tile point writes back to the second output array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h2 : t.val % 8 = 7 := (flush0_3 t).mp hf
  show (cfg0.win 3).cut (grid0.coords t) ((dats m 0 c).after 3 t) = _
  rw [after0_3, out3_eq m c t h2]
  funext j
  obtain ⟨p, rfl⟩ : ∃ p : Fin 4096, j = ix3 (n0 := 1) (n1 := 1) (n2 := 4096) 0 0 p :=
    ⟨j 2, funext fun a => by
      match a with
      | ⟨0, _⟩ => exact Subsingleton.elim (α := Fin 1) _ _
      | ⟨1, _⟩ => exact Subsingleton.elim (α := Fin 1) _ _
      | ⟨2, _⟩ => rfl⟩
  show k0_pay1 (F := Ideal) (accN m c t.val) (ix3 0 0 p) = G3 m c (((cfg0.win 3).blk t).view.emb (ix3 0 0 p))
  rw [emb3, pay1_apply]
  have e : t.val = 8 * (bOf t).val + 7 := by show t.val = 8 * (t.val / 8) + 7; omega
  have h := acc_last m c (bOf t) p
  rw [← e] at h
  exact h

theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (fun t hf => flushed3_eq m c t hf) cover3

/-! ## The run, read -/

/-- Every weakly fair execution of the idealized kernel's program terminates with its result at the closing chain of the
    two arrays of minima of its argument arrays, the arguments unchanged. -/
theorem run : θ_run defs (onTc (τ := τ) (main (F := Ideal))) ⟨m, fun _ => 0, ρ⟩ fun r => ∀ c : Dev nD,
      r.2.mem ((c.tc : Thread nD τ).loc main_v11)
        = Cert.Spec.total reducesTo_S8x4096_S8_d1 h_S_ bcast_S_S8 reducesTo_S8_S_d0
            (Cert.Spec.near1 (m ((c.tc : Thread nD τ).loc main_arg0)) (m ((c.tc : Thread nD τ).loc main_arg1)))
            (Cert.Spec.near2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v11 (by decide)).trans
          (Cert.KernelIdeal.Tail.tail_eq m (dats m) c (Cert.Spec.near1 (X m c) (Y m c)) (Cert.Spec.near2 (X m c) (Y m c))
            (fun b n => by rw [final2]; rfl) (fun b n => by rw [final3]; rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.RefValue.lean ====
/-
  The reference's result as the shared closing chain of the two arrays of minima.
-/
import proofs.«153870_j14293651161196_1_alg».proof.Proof.Gen.ReferenceIdeal.Read
import proofs.«153870_j14293651161196_1_alg».proof.Proof.Spec
import proofs.«153870_j14293651161196_1_alg».proof.Proof.LibMinReduce

noncomputable section

namespace Cert.ReferenceIdeal.RefValue

open Idealize.ShloMosaic Idealize.ShloMosaic.ValueIdx Cert.ReferenceIdeal Cert.ReferenceIdeal.Gen Cert.ReferenceIdeal.Read

/-- The clipped squared distance the reference forms between point `n` of the first cloud and point `m` of the second in
    batch entry `b` is the specification's. -/
private theorem v14_at (x0 x1 : FVec Ideal S8x4096x3 .f32) (b : Fin 8) (n m : Fin 4096) :
    val_main_v14 (F := Ideal) x0 x1 (ix3 b n m) = Cert.Spec.dist x0 x1 b n m := by
  rw [val_main_v14_apply, val_main_v12_apply, val_main_v9_apply, val_main_v7_apply, val_main_v5_apply,
    val_main_v1_apply, val_main_v8_apply, val_main_v6_apply, val_main_v3_apply, val_main_v13_apply,
    val_main_v11_apply, val_main_v10_apply, val_main_v4_apply, val_main_cst_apply, val_main_cst_0_apply,
    val_main_cst_1_apply, val_main_cst_2_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, Ideal.ofBits_def, Ideal.addf_def, Ideal.subf_def,
    Ideal.mulf_def, Ideal.maximumf_def]
  unfold Cert.Spec.dist
  rw [Ideal.ofBits_zero_f32, zero_add, zero_add]

/-- The reference's minimum over the second cloud is the specification's. -/
private theorem v15_eq (x0 x1 : FVec Ideal S8x4096x3 .f32) :
    val_main_v15 (F := Ideal) x0 x1 = Cert.Spec.near1 x0 x1 := by
  funext i
  obtain ⟨b, n, rfl⟩ : ∃ (b : Fin 8) (n : Fin 4096), i = ix2 b n := ⟨i 0, i 1, eq_ix2 i⟩
  unfold val_main_v15
  rw [hostReduce_min_last_apply _ _ reducesTo_S8x4096x4096_S8x4096_d2 (by decide) h_S_ b n, Cert.Spec.near1_apply]
  exact Finset.fold_congr fun m _ => v14_at x0 x1 b n m

/-- The reference's minimum over the first cloud is the specification's. -/
private theorem v16_eq (x0 x1 : FVec Ideal S8x4096x3 .f32) :
    val_main_v16 (F := Ideal) x0 x1 = Cert.Spec.near2 x0 x1 := by
  funext i
  obtain ⟨b, m, rfl⟩ : ∃ (b : Fin 8) (m : Fin 4096), i = ix2 b m := ⟨i 0, i 1, eq_ix2 i⟩
  unfold val_main_v16
  rw [hostReduce_min_mid_apply _ _ reducesTo_S8x4096x4096_S8x4096_d1 (by decide) h_S_ b m, Cert.Spec.near2_apply]
  exact Finset.fold_congr fun n _ => v14_at x0 x1 b n m

/-- The reference's last stage is the closing chain applied to the two arrays of minima. -/
theorem ref_eq (x0 x1 : FVec Ideal S8x4096x3 .f32) :
    val_main_v25 (F := Ideal) x0 x1
      = Cert.Spec.total reducesTo_S8x4096_S8_d1 h_S_ bcast_S_S8 reducesTo_S8_S_d0 (Cert.Spec.near1 x0 x1) (Cert.Spec.near2 x0 x1) := by
  unfold val_main_v25 val_main_v24 val_main_v23 val_main_v22 val_main_v21 val_main_v20 val_main_v19 val_main_v18
    val_main_v17 val_main_cst_5 val_main_cst_6 val_main_cst_7 val_main_cst_8 val_main_cst_9 val_main_cst_10
  rw [v15_eq, v16_eq]
  generalize Cert.Spec.near1 x0 x1 = p
  generalize Cert.Spec.near2 x0 x1 = q
  unfold Cert.Spec.total
  rfl

end Cert.ReferenceIdeal.RefValue

end
-- ==== Proof.lean ====
/-
  The kernel computes, for two clouds of 4096 points in three dimensions per batch entry, the symmetric nearest-neighbour
  distance: each point takes the least clipped squared distance `max (|p|² + |q|² - 2 p·q) 0` to a point of the other
  cloud, and the result is the batch mean of the two clouds' means of these minima. It works tile by tile — 512 points of
  the first cloud against the whole second cloud — writing each tile's row minima out directly and keeping a running
  column minimum across the eight tiles of a batch entry in a scratch row, written out after the last tile. The
  reference forms the whole 4096 × 4096 table per batch entry and reduces it along each axis.

  Over the extended reals the two agree: a sum over the three coordinates is the same sum however it is taken; the
  matrix product into a zero accumulator is the inner product; and a minimum over 4096 rows cut into eight tiles is the
  running minimum of the tiles' minima (`min` is associative, commutative and idempotent — no finiteness is used).
  Both programs then apply the same closing chain of host operations to the two arrays of minima.

  The three frames: both kernel programs run their one region point by point, each point in one of three control cases
  (first, middle, last tile of a batch entry); the reference is a straight line of host operations.
-/
import proofs.«153870_j14293651161196_1_alg».proof.Defs
import proofs.«153870_j14293651161196_1_alg».proof.Proof.Gen.Kernel
import proofs.«153870_j14293651161196_1_alg».proof.Proof.Gen.KernelIdeal
import proofs.«153870_j14293651161196_1_alg».proof.Proof.Gen.ReferenceIdeal
import proofs.«153870_j14293651161196_1_alg».proof.Proof.Gen.Pre_finite_inputs
import proofs.«153870_j14293651161196_1_alg».proof.Proof.Gen.ReferenceIdeal.Run
import proofs.«153870_j14293651161196_1_alg».proof.Proof.Gen.ReferenceIdeal.Read
import proofs.«153870_j14293651161196_1_alg».proof.Proof.KFrame
import proofs.«153870_j14293651161196_1_alg».proof.Proof.KIValue
import proofs.«153870_j14293651161196_1_alg».proof.Proof.RefValue

noncomputable section

namespace Cert.Proof

open Idealize.ShloMosaic Idealize.ShloMosaic.TcCoe Idealize.SL.Sem

/-- The word-level kernel program runs to the end, faults nowhere, and leaves its two argument arrays unchanged. -/
theorem frame_k : Cert.frame_Kernel := fun m ρ _ => Cert.Kernel.Body.frame m ρ

/-- So does the idealized kernel program. -/
theorem frame_ki : Cert.frame_KernelIdeal := fun m ρ _ => Cert.KernelIdeal.Body.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two clouds, both idealized programs end at the closing chain of the two arrays of
    minima. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v25_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
